-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S2x50000 : Shape := ⟨2, ![2, 50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S64 .f32) (main_arg15 : FVec F S64x10 .f32) (main_arg16 : FVec F S10 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x10 .f32 := Host.absf main_arg15
  let main_cst_22 : FVec F S_ .f32 := constant S_ .f32 0x7F800000#32
  let main_v60 : FVec F S64x10 .f32 := broadcastInDim S64x10 ![] bcast_S_S64x10 main_cst_22
  let main_v61 : IVec S64x10 1 := cmpf .olt main_v59 main_v60
  let main_c_23 : IVec S_ 1 := constantI S_ 1 1#1
  let main_v62 : IVec S_ 1 := (fun x v => Host.reduce IntOp.andi x v reducesTo_S64x10_S_d0_1 h_S_) main_v61 main_c_23
  let main_v63 : IVec S_ 1 := andi main_v58 main_v62
  let main_v64 : FVec F S10 .f32 := Host.absf main_arg16
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg10 : FVec F S128 .f32) (main_arg11 : FVec F S128x64 .f32) (main_arg12 : FVec F S64 .f32) (main_arg13 : FVec F S128x64 .f32) (main_arg14 : FVec F S64 .f32) (main_arg15 : FVec F S64x10 .f32) (main_arg16 : FVec F S10 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg11
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg13
  let main_cst_18 : FVec F S_ .f32 := constant S_ .f32 0x7F800000#32
  let main_v50 : FVec F S128x64 .f32 := broadcastInDim S128x64 ![] bcast_S_S128x64 main_cst_18
  fn_part3 (F := F) main_arg14 main_arg15 main_arg16 main_v48 main_v49 main_v50

def fn_part1 {F : FTy → Type} [FloatOps F] (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S128x64 .f32) (main_arg14 : FVec F S64 .f32) (main_arg15 : FVec F S64x10 .f32) (main_arg16 : FVec F S10 .f32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S50000x128 .f32) (main_arg1 : FVec F S50000x128 .f32) (main_arg2 : IVec S2x800000 32) (main_arg3 : FVec F S800000 .f32) (main_arg4 : IVec S2x800000 32) (main_arg5 : FVec F S800000 .f32) (main_arg6 : IVec S2x50000 32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S128x64 .f32) (main_arg14 : FVec F S64 .f32) (main_arg15 : FVec F S64x10 .f32) (main_arg16 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S2x50000 : Shape := ⟨2, ![2, 50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x64 : Shape := ⟨2, ![1, 64]⟩
abbrev S50000x64 : Shape := ⟨2, ![50000, 64]⟩
abbrev S1x50000 : Shape := ⟨2, ![1, 50000]⟩
abbrev S50000x1 : Shape := ⟨2, ![50000, 1]⟩
abbrev S1x10 : Shape := ⟨2, ![1, 10]⟩
abbrev S50000x10 : Shape := ⟨2, ![50000, 10]⟩
abbrev S5000x128 : Shape := ⟨2, ![5000, 128]⟩
abbrev S5000x64 : Shape := ⟨2, ![5000, 64]⟩
abbrev S5000x10 : Shape := ⟨2, ![5000, 10]⟩

abbrev nBuf : Space → Nat
  | .hbm => 98
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x800000, .i32⟩
  | .hbm, ⟨3, _⟩ => ⟨S800000, .f32⟩
  | .hbm, ⟨4, _⟩ => ⟨S2x800000, .i32⟩
  | .hbm, ⟨5, _⟩ => ⟨S800000, .f32⟩
  | .hbm, ⟨6, _⟩ => ⟨S2x50000, .i32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S64x10, .f32⟩
  | .hbm, ⟨16, _⟩ => ⟨S10, .f32⟩
  | .hbm, ⟨17, _⟩ => ⟨S50000x128, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S50000, .i32⟩
  | .hbm, ⟨23, _⟩ => ⟨S850000, .i32⟩
  | .hbm, ⟨24, _⟩ => ⟨S850000, .i32⟩
  | .hbm, ⟨25, _⟩ => ⟨S_, .f32⟩
  | .hbm, ⟨26, _⟩ => ⟨S50000, .f32⟩
  | .hbm, ⟨27, _⟩ => ⟨S850000, .f32⟩
  | .hbm, ⟨28, _⟩ => ⟨S_, .f32⟩
  | .hbm, ⟨29, _⟩ => ⟨S50000, .f32⟩
  | .hbm, ⟨30, _⟩ => ⟨S850000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S50000, .f32⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000, .f32⟩
  | .hbm, ⟨59, _⟩ => ⟨S850000, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x1, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S1x128, .f32⟩
  | .hbm, ⟨77, _⟩ => ⟨S1x64, .f32⟩
  | .hbm, ⟨78, _⟩ => ⟨S50000x64, .f32⟩
  | .hbm, ⟨79, _⟩ => ⟨S1x50000, .i32⟩
  | .hbm, ⟨80, _⟩ => ⟨S50000, .i32⟩
  | .hbm, ⟨81, _⟩ => ⟨S1x50000, .i32⟩
  | .hbm, ⟨82, _⟩ => ⟨S50000, .i32⟩
  | .hbm, ⟨83, _⟩ => ⟨S_, .i32⟩
  | .hbm, ⟨84, _⟩ => ⟨S50000, .i32⟩
  | .hbm, ⟨85, _⟩ => ⟨S50000, .i1⟩
  | .hbm, ⟨86, _⟩ => ⟨S_, .i32⟩
  | .hbm, ⟨87, _⟩ => ⟨S50000, .i32⟩
  | .hbm, ⟨88, _⟩ => ⟨S50000, .i32⟩
  | .hbm, ⟨89, _⟩ => ⟨S50000, .i32⟩
  | .hbm, ⟨90, _⟩ => ⟨S50000x1, .i32⟩
  | .hbm, ⟨91, _⟩ => ⟨S50000x64, .f32⟩
  | .hbm, ⟨92, _⟩ => ⟨S_, .f32⟩
  | .hbm, ⟨93, _⟩ => ⟨S50000x64, .f32⟩
  | .hbm, ⟨94, _⟩ => ⟨S50000x1, .i32⟩
  | .hbm, ⟨95, _⟩ => ⟨S50000x64, .f32⟩
  | .hbm, ⟨96, _⟩ => ⟨S1x10, .f32⟩
  | .hbm, ⟨97, _⟩ => ⟨S50000x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x10, .f32⟩
  | .local _ .vmem, ⟨15, _⟩ => ⟨S1x10, .f32⟩
  | .local _ .vmem, ⟨16, _⟩ => ⟨S5000x10, .f32⟩
  | .local _ .vmem, ⟨17, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst : Ref sig .tc := ⟨.hbm, 25, rfl⟩
abbrev main_call0_v8 : Ref sig .tc := ⟨.hbm, 26, rfl⟩
abbrev main_call0_v9 : Ref sig .tc := ⟨.hbm, 27, rfl⟩
abbrev main_call0_cst_0 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_1 : Ref sig .tc := ⟨.hbm, 32, rfl⟩
abbrev main_call0_v13 : Ref sig .tc := ⟨.hbm, 33, rfl⟩
abbrev main_call0_v14 : Ref sig .tc := ⟨.hbm, 34, rfl⟩
abbrev main_call0_v15 : Ref sig .tc := ⟨.hbm, 35, rfl⟩
abbrev main_call0_cst_2 : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_v16 : Ref sig .tc := ⟨.hbm, 39, rfl⟩
abbrev main_call0_c : Ref sig .tc := ⟨.hbm, 40, rfl⟩
abbrev main_call0_v17 : Ref sig .tc := ⟨.hbm, 41, rfl⟩
abbrev main_call0_v18 : Ref sig .tc := ⟨.hbm, 42, rfl⟩
abbrev main_call0_c_3 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_v24 : Ref sig .tc := ⟨.hbm, 49, rfl⟩
abbrev main_call0_c_4 : Ref sig .tc := ⟨.hbm, 50, rfl⟩
abbrev main_call0_v25 : Ref sig .tc := ⟨.hbm, 51, rfl⟩
abbrev main_call0_v26 : Ref sig .tc := ⟨.hbm, 52, rfl⟩
abbrev main_call0_c_5 : Ref sig .tc := ⟨.hbm, 53, rfl⟩
abbrev main_call0_v27 : Ref sig .tc := ⟨.hbm, 54, rfl⟩
abbrev main_call0_v28 : Ref sig .tc := ⟨.hbm, 55, rfl⟩
abbrev main_call0_v29 : Ref sig .tc := ⟨.hbm, 56, rfl⟩
abbrev main_call0_v30 : Ref sig .tc := ⟨.hbm, 57, rfl⟩
abbrev main_call0_v31 : Ref sig .tc := ⟨.hbm, 58, rfl⟩
abbrev main_call0_v32 : Ref sig .tc := ⟨.hbm, 59, rfl⟩
abbrev main_call0_c_6 : Ref sig .tc := ⟨.hbm, 60, rfl⟩
abbrev main_call0_v33 : Ref sig .tc := ⟨.hbm, 61, rfl⟩
abbrev main_call0_v34 : Ref sig .tc := ⟨.hbm, 62, rfl⟩
abbrev main_call0_c_7 : Ref sig .tc := ⟨.hbm, 63, rfl⟩
abbrev main_call0_v35 : Ref sig .tc := ⟨.hbm, 64, rfl⟩
abbrev main_call0_v36 : Ref sig .tc := ⟨.hbm, 65, rfl⟩
abbrev main_call0_v37 : Ref sig .tc := ⟨.hbm, 66, rfl⟩
abbrev main_call0_v38 : Ref sig .tc := ⟨.hbm, 67, rfl⟩
abbrev main_call0_v39 : Ref sig .tc := ⟨.hbm, 68, rfl⟩
abbrev main_call0_v40 : Ref sig .tc := ⟨.hbm, 69, rfl⟩
abbrev main_call0_v41 : Ref sig .tc := ⟨.hbm, 70, rfl⟩
abbrev main_call0_v42 : Ref sig .tc := ⟨.hbm, 71, rfl⟩
abbrev main_call0_cst_8 : Ref sig .tc := ⟨.hbm, 72, rfl⟩
abbrev main_call0_v43 : Ref sig .tc := ⟨.hbm, 73, rfl⟩
abbrev main_call0_v44 : Ref sig .tc := ⟨.hbm, 74, rfl⟩
abbrev main_call0_v45 : Ref sig .tc := ⟨.hbm, 75, rfl⟩
abbrev main_call0_v46 : Ref sig .tc := ⟨.hbm, 76, rfl⟩
abbrev main_call0_v47 : Ref sig .tc := ⟨.hbm, 77, rfl⟩
abbrev main_call0_v48 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_c_9 : Ref sig .tc := ⟨.hbm, 83, rfl⟩
abbrev main_call0_v53 : Ref sig .tc := ⟨.hbm, 84, rfl⟩
abbrev main_call0_v54 : Ref sig .tc := ⟨.hbm, 85, rfl⟩
abbrev main_call0_c_10 : Ref sig .tc := ⟨.hbm, 86, rfl⟩
abbrev main_call0_v55 : Ref sig .tc := ⟨.hbm, 87, rfl⟩
abbrev main_call0_v56 : Ref sig .tc := ⟨.hbm, 88, rfl⟩
abbrev main_call0_v57 : Ref sig .tc := ⟨.hbm, 89, rfl⟩
abbrev main_call0_v58 : Ref sig .tc := ⟨.hbm, 90, rfl⟩
abbrev main_call0_v59 : Ref sig .tc := ⟨.hbm, 91, rfl⟩
abbrev main_call0_cst_11 : Ref sig .tc := ⟨.hbm, 92, rfl⟩
abbrev main_call0_v60 : Ref sig .tc := ⟨.hbm, 93, rfl⟩
abbrev main_call0_v61 : Ref sig .tc := ⟨.hbm, 94, rfl⟩
abbrev main_call0_v62 : Ref sig .tc := ⟨.hbm, 95, rfl⟩
abbrev main_call0_v63 : Ref sig .tc := ⟨.hbm, 96, rfl⟩
abbrev main_v0 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S64_S1x64 : S64.ShapeCasts S1x64
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S50000_S50000x1_0 : S50000.BroadcastsInDim S50000x1 (![0] : Fin 1 → Fin S50000x1.rank)
  bcast_S_S50000x64 : S_.BroadcastsInDim S50000x64 (![] : Fin 0 → Fin S50000x64.rank)
  shapeCasts_S10_S1x10 : S10.ShapeCasts S1x10
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x64_S50000x1_S50000x64_1_0_n_n_0_1_164_wf : GatherDims.WF S50000x64 S50000x1 S50000x64 [1] [0] [] [0] [] 1 ![1, 64]
  scatter_S50000x64_S50000x1_S50000x64_1_0_0_1_wf : ScatterDims.WF S50000x64 S50000x1 S50000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x10.size a ≤ S50000x10.size a
  hwx2_3 : ∀ i : grid2.Coords, EltTy.bits .f32 = 32 ∨ (Rect.block (s := S50000x10) S5000x10.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S50000x64_S50000x1_S50000x64_1_0_0_1 : ScatterDims S50000x64 S50000x1 S50000x64 where
  updateWindowDims := [1]
  insertedWindowDims := [0]
  scatterDimsToOperandDims := [0]
  indexVectorDim := 1
  wf := scatter_S50000x64_S50000x1_S50000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v48) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v62) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg15) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v63) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S5000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S2x50000 : Shape := ⟨2, ![2, 50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩
abbrev S1x50000 : Shape := ⟨2, ![1, 50000]⟩
abbrev S50000x1 : Shape := ⟨2, ![50000, 1]⟩
abbrev S50000x10 : Shape := ⟨2, ![50000, 10]⟩
abbrev S1x10 : Shape := ⟨2, ![1, 10]⟩

abbrev nBuf : Space → Nat
  | .hbm => 211
  | .vmem => 0
  | .smem => 0
  | _ => 0

abbrev hbmTy0_0 (i : Nat) : BufTy := match i % 128 with
  | 0 => ⟨S50000x128, .f32⟩
  | 1 => ⟨S50000x128, .f32⟩
  | 2 => ⟨S2x800000, .i32⟩
  | 3 => ⟨S800000, .f32⟩
  | 4 => ⟨S2x800000, .i32⟩
  | 5 => ⟨S800000, .f32⟩
  | 6 => ⟨S2x50000, .i32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S128x64, .f32⟩
  | 14 => ⟨S64, .f32⟩
  | 15 => ⟨S64x10, .f32⟩
  | 16 => ⟨S10, .f32⟩
  | 17 => ⟨S50000x128, .f32⟩
  | 18 => ⟨S50000, .i32⟩
  | 19 => ⟨S1x800000, .i32⟩
  | 20 => ⟨S800000, .i32⟩
  | 21 => ⟨S850000, .i32⟩
  | 22 => ⟨S1x800000, .i32⟩
  | 23 => ⟨S800000, .i32⟩
  | 24 => ⟨S850000, .i32⟩
  | 25 => ⟨S_, .f32⟩
  | 26 => ⟨S50000, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S_, .f32⟩
  | 33 => ⟨S50000, .f32⟩
  | 34 => ⟨S50000, .i1⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S850000, .f32⟩
  | 60 => ⟨S_, .i32⟩
  | 61 => ⟨S850000, .i32⟩
  | 62 => ⟨S850000, .i1⟩
  | 63 => ⟨S_, .i32⟩
  | 64 => ⟨S850000, .i32⟩
  | 65 => ⟨S850000, .i32⟩
  | 66 => ⟨S850000, .i32⟩
  | 67 => ⟨S850000x1, .i32⟩
  | 68 => ⟨S850000x128, .f32⟩
  | 69 => ⟨S850000x1, .f32⟩
  | 70 => ⟨S850000x128, .f32⟩
  | 71 => ⟨S850000x128, .f32⟩
  | 72 => ⟨S_, .f32⟩
  | 73 => ⟨S50000x128, .f32⟩
  | 74 => ⟨S850000x1, .i32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .i1⟩
  | 82 => ⟨S_, .f32⟩
  | 83 => ⟨S50000x128, .f32⟩
  | 84 => ⟨S50000x128, .i1⟩
  | 85 => ⟨S_, .f32⟩
  | 86 => ⟨S_, .f32⟩
  | 87 => ⟨S50000x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S50000x128, .f32⟩
  | 95 => ⟨S50000, .i32⟩
  | 96 => ⟨S1x800000, .i32⟩
  | 97 => ⟨S800000, .i32⟩
  | 98 => ⟨S850000, .i32⟩
  | 99 => ⟨S1x800000, .i32⟩
  | 100 => ⟨S800000, .i32⟩
  | 101 => ⟨S850000, .i32⟩
  | 102 => ⟨S_, .f32⟩
  | 103 => ⟨S50000, .f32⟩
  | 104 => ⟨S850000, .f32⟩
  | 105 => ⟨S_, .f32⟩
  | 106 => ⟨S50000, .f32⟩
  | 107 => ⟨S850000x1, .i32⟩
  | 108 => ⟨S50000, .f32⟩
  | 109 => ⟨S_, .f32⟩
  | 110 => ⟨S50000, .f32⟩
  | 111 => ⟨S50000, .i1⟩
  | 112 => ⟨S50000, .f32⟩
  | 113 => ⟨S_, .f32⟩
  | 114 => ⟨S_, .f32⟩
  | 115 => ⟨S50000, .f32⟩
  | 116 => ⟨S50000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000, .f32⟩
  | 126 => ⟨S850000, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000, .f32⟩
  | 8 => ⟨S850000, .f32⟩
  | 9 => ⟨S_, .i32⟩
  | 10 => ⟨S850000, .i32⟩
  | 11 => ⟨S850000, .i1⟩
  | 12 => ⟨S_, .i32⟩
  | 13 => ⟨S850000, .i32⟩
  | 14 => ⟨S850000, .i32⟩
  | 15 => ⟨S850000, .i32⟩
  | 16 => ⟨S850000x1, .i32⟩
  | 17 => ⟨S850000x128, .f32⟩
  | 18 => ⟨S850000x1, .f32⟩
  | 19 => ⟨S850000x128, .f32⟩
  | 20 => ⟨S850000x128, .f32⟩
  | 21 => ⟨S_, .f32⟩
  | 22 => ⟨S50000x128, .f32⟩
  | 23 => ⟨S850000x1, .i32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .i1⟩
  | 31 => ⟨S_, .f32⟩
  | 32 => ⟨S50000x128, .f32⟩
  | 33 => ⟨S50000x128, .i1⟩
  | 34 => ⟨S_, .f32⟩
  | 35 => ⟨S_, .f32⟩
  | 36 => ⟨S50000x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S50000x64, .f32⟩
  | 44 => ⟨S1x64, .f32⟩
  | 45 => ⟨S50000x64, .f32⟩
  | 46 => ⟨S50000x64, .f32⟩
  | 47 => ⟨S1x50000, .i32⟩
  | 48 => ⟨S50000, .i32⟩
  | 49 => ⟨S1x50000, .i32⟩
  | 50 => ⟨S50000, .i32⟩
  | 51 => ⟨S_, .i32⟩
  | 52 => ⟨S50000, .i32⟩
  | 53 => ⟨S50000, .i1⟩
  | 54 => ⟨S_, .i32⟩
  | 55 => ⟨S50000, .i32⟩
  | 56 => ⟨S50000, .i32⟩
  | 57 => ⟨S50000, .i32⟩
  | 58 => ⟨S50000x1, .i32⟩
  | 59 => ⟨S50000x64, .f32⟩
  | 60 => ⟨S_, .f32⟩
  | 61 => ⟨S50000x64, .f32⟩
  | 62 => ⟨S50000x1, .i32⟩
  | 63 => ⟨S50000x64, .f32⟩
  | 64 => ⟨S_, .f32⟩
  | 65 => ⟨S50000x64, .f32⟩
  | 66 => ⟨S50000x64, .i1⟩
  | 67 => ⟨S_, .f32⟩
  | 68 => ⟨S50000x64, .f32⟩
  | 69 => ⟨S50000x64, .i1⟩
  | 70 => ⟨S_, .f32⟩
  | 71 => ⟨S_, .f32⟩
  | 72 => ⟨S50000x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S50000x64, .f32⟩
  | 79 => ⟨S50000x10, .f32⟩
  | 80 => ⟨S1x10, .f32⟩
  | 81 => ⟨S50000x10, .f32⟩
  | 82 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_c_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_cst_1 : Ref sig .tc := ⟨.hbm, 85, rfl⟩
abbrev main_call1_call0_v0 : Ref sig .tc := ⟨.hbm, 86, rfl⟩
abbrev main_call1_call0_v1 : Ref sig .tc := ⟨.hbm, 87, rfl⟩
abbrev main_call1_v4 : Ref sig .tc := ⟨.hbm, 88, rfl⟩
abbrev main_call1_v5 : Ref sig .tc := ⟨.hbm, 89, rfl⟩
abbrev main_call1_cst_2 : Ref sig .tc := ⟨.hbm, 90, rfl⟩
abbrev main_call1_v6 : Ref sig .tc := ⟨.hbm, 91, rfl⟩
abbrev main_call1_v7 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_9 : Ref sig .tc := ⟨.hbm, 102, rfl⟩
abbrev main_v58 : Ref sig .tc := ⟨.hbm, 103, rfl⟩
abbrev main_v59 : Ref sig .tc := ⟨.hbm, 104, rfl⟩
abbrev main_cst_10 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_11 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_12 : Ref sig .tc := ⟨.hbm, 113, rfl⟩
abbrev main_call2_v0 : Ref sig .tc := ⟨.hbm, 114, rfl⟩
abbrev main_call2_v1 : Ref sig .tc := ⟨.hbm, 115, rfl⟩
abbrev main_v66 : Ref sig .tc := ⟨.hbm, 116, rfl⟩
abbrev main_c_13 : Ref sig .tc := ⟨.hbm, 117, rfl⟩
abbrev main_v67 : Ref sig .tc := ⟨.hbm, 118, rfl⟩
abbrev main_v68 : Ref sig .tc := ⟨.hbm, 119, rfl⟩
abbrev main_c_14 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c_15 : Ref sig .tc := ⟨.hbm, 127, rfl⟩
abbrev main_v75 : Ref sig .tc := ⟨.hbm, 128, rfl⟩
abbrev main_v76 : Ref sig .tc := ⟨.hbm, 129, rfl⟩
abbrev main_c_16 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_c_17 : Ref sig .tc := ⟨.hbm, 137, rfl⟩
abbrev main_v83 : Ref sig .tc := ⟨.hbm, 138, rfl⟩
abbrev main_v84 : Ref sig .tc := ⟨.hbm, 139, rfl⟩
abbrev main_c_18 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_19 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_cst_0 : Ref sig .tc := ⟨.hbm, 159, rfl⟩
abbrev main_call3_v2 : Ref sig .tc := ⟨.hbm, 160, rfl⟩
abbrev main_call3_v3 : Ref sig .tc := ⟨.hbm, 161, rfl⟩
abbrev main_call3_cst_1 : Ref sig .tc := ⟨.hbm, 162, rfl⟩
abbrev main_call3_call0_v0 : Ref sig .tc := ⟨.hbm, 163, rfl⟩
abbrev main_call3_call0_v1 : Ref sig .tc := ⟨.hbm, 164, rfl⟩
abbrev main_call3_v4 : Ref sig .tc := ⟨.hbm, 165, rfl⟩
abbrev main_call3_v5 : Ref sig .tc := ⟨.hbm, 166, rfl⟩
abbrev main_call3_cst_2 : Ref sig .tc := ⟨.hbm, 167, rfl⟩
abbrev main_call3_v6 : Ref sig .tc := ⟨.hbm, 168, rfl⟩
abbrev main_call3_v7 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_c_20 : Ref sig .tc := ⟨.hbm, 179, rfl⟩
abbrev main_v108 : Ref sig .tc := ⟨.hbm, 180, rfl⟩
abbrev main_v109 : Ref sig .tc := ⟨.hbm, 181, rfl⟩
abbrev main_c_21 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_cst_22 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_call4_cst : Ref sig .tc := ⟨.hbm, 192, rfl⟩
abbrev main_call4_v0 : Ref sig .tc := ⟨.hbm, 193, rfl⟩
abbrev main_call4_v1 : Ref sig .tc := ⟨.hbm, 194, rfl⟩
abbrev main_call4_cst_0 : Ref sig .tc := ⟨.hbm, 195, rfl⟩
abbrev main_call4_v2 : Ref sig .tc := ⟨.hbm, 196, rfl⟩
abbrev main_call4_v3 : Ref sig .tc := ⟨.hbm, 197, rfl⟩
abbrev main_call4_cst_1 : Ref sig .tc := ⟨.hbm, 198, rfl⟩
abbrev main_call4_call0_v0 : Ref sig .tc := ⟨.hbm, 199, rfl⟩
abbrev main_call4_call0_v1 : Ref sig .tc := ⟨.hbm, 200, rfl⟩
abbrev main_call4_v4 : Ref sig .tc := ⟨.hbm, 201, rfl⟩
abbrev main_call4_v5 : Ref sig .tc := ⟨.hbm, 202, rfl⟩
abbrev main_call4_cst_2 : Ref sig .tc := ⟨.hbm, 203, rfl⟩
abbrev main_call4_v6 : Ref sig .tc := ⟨.hbm, 204, rfl⟩
abbrev main_call4_v7 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S50000x1_S50000x64_1_0_n_n_0_1_164_wf : GatherDims.WF S50000x64 S50000x1 S50000x64 [1] [0] [] [0] [] 1 ![1, 64]
  scatter_S50000x64_S50000x1_S50000x64_1_0_0_1_wf : ScatterDims.WF S50000x64 S50000x1 S50000x64 [1] [0] [0] 1
  dot_S50000x64_S64x10_S50000x10_1_0_0_1_n_n_wf : DotDims.WF S50000x64 S64x10 S50000x10 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S50000x1_S50000x64_1_0_n_n_0_1_164 : GatherDims S50000x64 S50000x1 S50000x64 where
  offsetDims := [1]
  collapsedSliceDims := [0]
  operandBatchingDims := []
  startIndicesBatchingDims := []
  startIndexMap := [0]
  indexVectorDim := 1
  sliceSizes := ![1, 64]
  wf := gather_S50000x64_S50000x1_S50000x64_1_0_n_n_0_1_164_wf
def scatter_S50000x64_S50000x1_S50000x64_1_0_0_1 : ScatterDims S50000x64 S50000x1 S50000x64 where
  updateWindowDims := [1]
  insertedWindowDims := [0]
  scatterDimsToOperandDims := [0]
  indexVectorDim := 1
  wf := scatter_S50000x64_S50000x1_S50000x64_1_0_0_1_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.Shared.lean ====
/-
  The host-side mathematics the two programs share, as functions of arrays.

  Both programs compute, on the higher-order graph, a GCN aggregation of a node-feature matrix: self-loops of weight 1 are
  appended to the edge list, the degree of a node is the sum of the weights of the edges that end in it, an edge's
  coefficient is dinv(src) * weight * dinv(dst) with dinv = 1/sqrt(deg) where deg > 0 and 0 elsewhere, and row `dst` of the
  result is the sum over the edges into `dst` of coefficient * row `src` of the features (`aggregate`).  Both then move
  messages along the bipartite edges: row `bdst` of the result is the sum of the message rows `bsrc` over the bipartite edges
  into it (`bipartite`).  Between these stand three dense layers; the reference writes each of them as a matrix product,
  a bias and jax's ELU on whole arrays (`dense0`, `dense1`, `dense2`, `eluWide`, `eluNarrow`).

  Every function here is stated once, for any float family, so that each program's run can be read back as a composition
  of the same functions and the chain of scatters and gathers is never opened.
-/
import proofs.«426197_j26972394619794_2_alg».proof.Proof.Gen.ReferenceIdeal

noncomputable section

namespace Cert.Shared

open Cert.ReferenceIdeal Cert.ReferenceIdeal.Facts₀ Cert.ReferenceIdeal.Facts Idealize.ShloMosaic

variable {F : FTy → Type} [FloatOps F]

/-- A negative index counts from the end of an axis of extent 50000 (numpy's convention), over the 850000 edges. -/
def wrapEdges (i : IVec S850000 32) : IVec S850000 32 :=
  select (cmpi .slt i (broadcastInDim S850000 ![] bcast_S_S850000 (constantI S_ 32 0#32)))
    (addi i (broadcastInDim S850000 ![] bcast_S_S850000 (constantI S_ 32 50000#32))) i

/-- The same over the 50000 bipartite edges. -/
def wrapBip (i : IVec S50000 32) : IVec S50000 32 :=
  select (cmpi .slt i (broadcastInDim S50000 ![] bcast_S_S50000 (constantI S_ 32 0#32)))
    (addi i (broadcastInDim S50000 ![] bcast_S_S50000 (constantI S_ 32 50000#32))) i

/-- Row `r` of the edge list followed by the 50000 self-loops. -/
def endpoints (r : Fin 2) (ei : IVec S2x800000 32) : IVec S850000 32 :=
  match r with
  | ⟨0, _⟩ => concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0
  | ⟨1, _⟩ => concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- The edge weights followed by a weight 1 for each self-loop. -/
def weights (ew : FVec F S800000 .f32) : FVec F S850000 .f32 :=
  concatenate S850000 0 [⟨S800000, ew⟩, ⟨S50000, broadcastInDim S50000 ![] bcast_S_S50000 (constant S_ .f32 0x3F800000#32)⟩] concatenates_S800000_S50000_S850000_d0

/-- The degree of each node from the edges' end nodes and weights: the sum of the weights of the edges that end in it. -/
def degreeOf (dst : IVec S850000 32) (wts : FVec F S850000 .f32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 dst) wts

/-- 1/sqrt(deg) where deg > 0, and 0 elsewhere. -/
def invSqrtDegreeOf (dst : IVec S850000 32) (wts : FVec F S850000 .f32) : FVec F S50000 .f32 :=
  select (cmpf .ogt (degreeOf dst wts) (broadcastInDim S50000 ![] bcast_S_S50000 (constant S_ .f32 0x00000000#32)))
    (Host.rsqrt (degreeOf dst wts))
    (broadcastInDim S50000 ![] bcast_S_S50000 (id (constant S_ .f32 0x00000000#32)))

/-- An edge's coefficient: dinv(src) * weight * dinv(dst). -/
def coefficientOf (src dst : IVec S850000 32) (wts : FVec F S850000 .f32) : FVec F S850000 .f32 :=
  mulf (mulf (Host.gather gather_S50000_S850000x1_S850000_n_0_n_n_0_1_1 (invSqrtDegreeOf dst wts)
        (broadcastInDim S850000x1 ![0] bcast_S850000_S850000x1_0 (wrapEdges src))) wts)
    (Host.gather gather_S50000_S850000x1_S850000_n_0_n_n_0_1_1 (invSqrtDegreeOf dst wts)
        (broadcastInDim S850000x1 ![0] bcast_S850000_S850000x1_0 (wrapEdges dst)))

/-- The GCN aggregation of the feature rows `h` over given start nodes, end nodes and weights: row `dst` sums
    coefficient * row `src` over the edges into `dst`. -/
def aggregateOf (h : FVec F S50000x128 .f32) (src dst : IVec S850000 32) (wts : FVec F S850000 .f32) : FVec F S50000x128 .f32 :=
  Host.scatterAdd scatter_S50000x128_S850000x1_S850000x128_1_0_0_1 (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 h
        (broadcastInDim S850000x1 ![0] bcast_S850000_S850000x1_0 (wrapEdges src)))
      (broadcastInDim S850000x128 ![0, 1] bcast_S850000x1_S850000x128_0_1
        (broadcastInDim S850000x1 ![0] bcast_S850000_S850000x1_0 (coefficientOf src dst wts))))

/-- The GCN aggregation over the edge list with self-loops appended. -/
def aggregate (h : FVec F S50000x128 .f32) (ei : IVec S2x800000 32) (ew : FVec F S800000 .f32) : FVec F S50000x128 .f32 :=
  aggregateOf h (endpoints 0 ei) (endpoints 1 ei) (weights ew)

/-- The end nodes of the bipartite edges (row 1 of the list). -/
def bipEnds (bi : IVec S2x50000 32) : IVec S50000 32 :=
  shapeCast _ (extractStridedSlice S1x50000 ![1, 0] bi slices_S2x50000_S1x50000_1_0) shapeCasts_S1x50000_S50000

/-- The start nodes of the bipartite edges (row 0 of the list). -/
def bipStarts (bi : IVec S2x50000 32) : IVec S50000 32 :=
  shapeCast _ (extractStridedSlice S1x50000 ![0, 0] bi slices_S2x50000_S1x50000_0_0) shapeCasts_S1x50000_S50000

/-- The bipartite step: row `bdst` sums the message rows `bsrc` over the bipartite edges into it. -/
def bipartite (msg : FVec F S50000x64 .f32) (bi : IVec S2x50000 32) : FVec F S50000x64 .f32 :=
  Host.scatterAdd scatter_S50000x64_S50000x1_S50000x64_1_0_0_1 (broadcastInDim S50000x64 ![] bcast_S_S50000x64 (constant S_ .f32 0x00000000#32))
    (broadcastInDim S50000x1 ![0] bcast_S50000_S50000x1_0 (bipEnds bi))
    (Host.gather gather_S50000x64_S50000x1_S50000x64_1_0_n_n_0_1_164 msg
      (broadcastInDim S50000x1 ![0] bcast_S50000_S50000x1_0 (wrapBip (bipStarts bi))))

/-- jax's ELU on a [50000, 128] array: x where x > 0, else 1 * expm1 (x where not x > 0, 0 where x > 0). -/
def eluWide (x : FVec F S50000x128 .f32) : FVec F S50000x128 .f32 :=
  select (cmpf .ogt x (broadcastInDim S50000x128 ![] bcast_S_S50000x128 (constant S_ .f32 0x00000000#32))) x
    (mulf (broadcastInDim S50000x128 ![] bcast_S_S50000x128 (constant S_ .f32 0x3F800000#32))
      (Host.expm1 (select (cmpf .ogt x (broadcastInDim S50000x128 ![] bcast_S_S50000x128 (constant S_ .f32 0x00000000#32)))
        (broadcastInDim S50000x128 ![] bcast_S_S50000x128 (id (constant S_ .f32 0x00000000#32))) x)))

/-- jax's ELU on a [50000, 64] array. -/
def eluNarrow (x : FVec F S50000x64 .f32) : FVec F S50000x64 .f32 :=
  select (cmpf .ogt x (broadcastInDim S50000x64 ![] bcast_S_S50000x64 (constant S_ .f32 0x00000000#32))) x
    (mulf (broadcastInDim S50000x64 ![] bcast_S_S50000x64 (constant S_ .f32 0x3F800000#32))
      (Host.expm1 (select (cmpf .ogt x (broadcastInDim S50000x64 ![] bcast_S_S50000x64 (constant S_ .f32 0x00000000#32)))
        (broadcastInDim S50000x64 ![] bcast_S_S50000x64 (id (constant S_ .f32 0x00000000#32))) x)))

/-- The first dense layer: x @ W. -/
def dense0 (x : FVec F S50000x128 .f32) (w : FVec F S128x128 .f32) : FVec F S50000x128 .f32 :=
  Host.dotGeneral dot_S50000x128_S128x128_S50000x128_1_0_0_1_n_n none x w

/-- The second dense layer on an aggregate `g`: elu(g + b) @ W + b'. -/
def dense1 (g : FVec F S50000x128 .f32) (b : FVec F S128 .f32) (w : FVec F S128x64 .f32) (b' : FVec F S64 .f32) : FVec F S50000x64 .f32 :=
  addf (Host.dotGeneral dot_S50000x128_S128x64_S50000x64_1_0_0_1_n_n none
      (eluWide (addf g (broadcastInDim S50000x128 ![0, 1] bcast_S1x128_S50000x128_0_1 (broadcastInDim S1x128 ![1] bcast_S128_S1x128_1 b)))) w)
    (broadcastInDim S50000x64 ![0, 1] bcast_S1x64_S50000x64_0_1 (broadcastInDim S1x64 ![1] bcast_S64_S1x64_1 b'))

/-- The last dense layer: elu(x) @ W + b. -/
def dense2 (x : FVec F S50000x64 .f32) (w : FVec F S64x10 .f32) (b : FVec F S10 .f32) : FVec F S50000x10 .f32 :=
  addf (Host.dotGeneral dot_S50000x64_S64x10_S50000x10_1_0_0_1_n_n none (eluNarrow x) w)
    (broadcastInDim S50000x10 ![0, 1] bcast_S1x10_S50000x10_0_1 (broadcastInDim S1x10 ![1] bcast_S10_S1x10_1 b))

/-- The whole network on the higher-order branch: what both programs return. -/
def network (xh : FVec F S50000x128 .f32) (ei : IVec S2x800000 32) (ew : FVec F S800000 .f32) (bi : IVec S2x50000 32)
    (wHo : FVec F S128x128 .f32) (bHo : FVec F S128 .f32) (wBip : FVec F S128x64 .f32) (bBip : FVec F S64 .f32)
    (wLin : FVec F S64x10 .f32) (bLin : FVec F S10 .f32) : FVec F S50000x10 .f32 :=
  dense2 (bipartite (dense1 (aggregate (dense0 xh wHo) ei ew) bHo wBip bBip) bi) wLin bLin

end Cert.Shared

end
-- ==== Proof.KHost.lean ====
/-
  The kernel program's two host stretches, read back at an abstract valuation.

  Between its three pipelined regions the program runs two stretches of host operations.  The first appends the self-loops
  to the edge endpoints and weights (its first ten operations) and then computes the GCN aggregation of region 0's output
  and reshapes two bias vectors into rows; the second moves region 1's output along the bipartite edges and reshapes the
  last bias.  Each buffer a later region reads is one of the shared functions of the buffers the stretch read, and the
  arguments a later stretch or region reads pass through unchanged.
-/
import proofs.«426197_j26972394619794_2_alg».proof.Proof.Gen.KernelIdeal.Frame
import proofs.«426197_j26972394619794_2_alg».proof.Proof.Shared
import Idealize.ShloMosaic.Lib.StableHlo.Run

set_option maxRecDepth 16384

noncomputable section

namespace Cert.KHost

open Idealize.ShloMosaic Idealize.ShloMosaic.TcCoe Idealize.SL.Sem Idealize.ShloMosaic.StableHlo
open Cert.KernelIdeal Cert.KernelIdeal.Gen

variable {F : FTy → Type} [FloatOps F]

/-- The first ten operations of the first host stretch: the edge endpoints and weights with the self-loops appended. -/
abbrev prep : List (HloOp τ sig (Elt F)) := (hostOps1 (F := F)).take 10
/-- The rest of the first host stretch: degrees, coefficients, the aggregation, the two bias rows. -/
abbrev rest : List (HloOp τ sig (Elt F)) := (hostOps1 (F := F)).drop 10

theorem hostOps1_split : (hostOps1 : List (HloOp τ sig (Elt F))) = prep ++ rest := (List.take_append_drop 10 _).symm

/-- The start nodes: row 0 of the edge list, then the self-loops. -/
theorem prep_src (W : Valuation τ sig (Elt F)) :
    after prep W (Proc.devRef .tc main_call0_v6) = Cert.Shared.endpoints 0 (W (Proc.devRef .tc main_arg4)) := by
  simp only [prep, hostOps1, List.take_succ_cons, List.take_zero]
  after_results
  rfl

/-- The end nodes: row 1 of the edge list, then the self-loops. -/
theorem prep_dst (W : Valuation τ sig (Elt F)) :
    after prep W (Proc.devRef .tc main_call0_v7) = Cert.Shared.endpoints 1 (W (Proc.devRef .tc main_arg4)) := by
  simp only [prep, hostOps1, List.take_succ_cons, List.take_zero]
  after_results
  rfl

/-- The weights, then a 1 for each self-loop. -/
theorem prep_weights (W : Valuation τ sig (Elt F)) :
    after prep W (Proc.devRef .tc main_call0_v9) = Cert.Shared.weights (W (Proc.devRef .tc main_arg5)) := by
  simp only [prep, hostOps1, List.take_succ_cons, List.take_zero]
  after_results
  rfl

/-- Region 0's output and the two bias vectors are not written by the first ten operations. -/
theorem prep_keep_v0 (W : Valuation τ sig (Elt F)) : after prep W (Proc.devRef .tc main_call0_v0) = W (Proc.devRef .tc main_call0_v0) := by
  simp only [prep, hostOps1, List.take_succ_cons, List.take_zero]
  after_results_simp
theorem prep_keep_arg10 (W : Valuation τ sig (Elt F)) : after prep W (Proc.devRef .tc main_arg10) = W (Proc.devRef .tc main_arg10) := by
  simp only [prep, hostOps1, List.take_succ_cons, List.take_zero]
  after_results_simp
theorem prep_keep_arg12 (W : Valuation τ sig (Elt F)) : after prep W (Proc.devRef .tc main_arg12) = W (Proc.devRef .tc main_arg12) := by
  simp only [prep, hostOps1, List.take_succ_cons, List.take_zero]
  after_results_simp

attribute [local irreducible] Host.scatterAdd Host.gather in
/-- The aggregation from the appended endpoints and weights. -/
theorem rest_aggregate (W : Valuation τ sig (Elt F)) :
    after rest W (Proc.devRef .tc main_call0_v45)
      = Cert.Shared.aggregateOf (F := F) (W (Proc.devRef .tc main_call0_v0)) (W (Proc.devRef .tc main_call0_v6))
          (W (Proc.devRef .tc main_call0_v7)) (W (Proc.devRef .tc main_call0_v9)) := by
  simp only [rest, hostOps1, List.drop_succ_cons, List.drop_zero]
  after_results_simp
  simp only [TRef.ofBuf, TRef.toBuf, cast_eq]
  rfl

/-- The first bias as a row. -/
theorem rest_bias_wide (W : Valuation τ sig (Elt F)) :
    after rest W (Proc.devRef .tc main_call0_v46) = shapeCast S1x128 (W (Proc.devRef .tc main_arg10)) Facts₀.shapeCasts_S128_S1x128 := by
  simp only [rest, hostOps1, List.drop_succ_cons, List.drop_zero]
  after_results_simp
  try simp only [TRef.ofBuf, TRef.toBuf, cast_eq]
  rfl

/-- The second bias as a row. -/
theorem rest_bias_narrow (W : Valuation τ sig (Elt F)) :
    after rest W (Proc.devRef .tc main_call0_v47) = shapeCast S1x64 (W (Proc.devRef .tc main_arg12)) Facts₀.shapeCasts_S64_S1x64 := by
  simp only [rest, hostOps1, List.drop_succ_cons, List.drop_zero]
  after_results_simp
  try simp only [TRef.ofBuf, TRef.toBuf, cast_eq]
  rfl

/-- After the first host stretch the aggregate buffer holds the GCN aggregation of region 0's output. -/
theorem host1_aggregate (W : Valuation τ sig (Elt F)) :
    after hostOps1 W (Proc.devRef .tc main_call0_v45)
      = Cert.Shared.aggregate (F := F) (W (Proc.devRef .tc main_call0_v0)) (W (Proc.devRef .tc main_arg4)) (W (Proc.devRef .tc main_arg5)) := by
  rw [hostOps1_split, after_append, rest_aggregate, prep_keep_v0, prep_src, prep_dst, prep_weights]
  rfl

theorem host1_bias_wide (W : Valuation τ sig (Elt F)) :
    after hostOps1 W (Proc.devRef .tc main_call0_v46) = shapeCast S1x128 (W (Proc.devRef .tc main_arg10)) Facts₀.shapeCasts_S128_S1x128 := by
  rw [hostOps1_split, after_append, rest_bias_wide, prep_keep_arg10]

theorem host1_bias_narrow (W : Valuation τ sig (Elt F)) :
    after hostOps1 W (Proc.devRef .tc main_call0_v47) = shapeCast S1x64 (W (Proc.devRef .tc main_arg12)) Facts₀.shapeCasts_S64_S1x64 := by
  rw [hostOps1_split, after_append, rest_bias_narrow, prep_keep_arg12]

/-- The arguments later stretches and regions read are not written by the first host stretch. -/
theorem host1_keep_arg11 (W : Valuation τ sig (Elt F)) : after hostOps1 W (Proc.devRef .tc main_arg11) = W (Proc.devRef .tc main_arg11) := by
  after_results_simp
theorem host1_keep_arg6 (W : Valuation τ sig (Elt F)) : after hostOps1 W (Proc.devRef .tc main_arg6) = W (Proc.devRef .tc main_arg6) := by
  after_results_simp
theorem host1_keep_arg15 (W : Valuation τ sig (Elt F)) : after hostOps1 W (Proc.devRef .tc main_arg15) = W (Proc.devRef .tc main_arg15) := by
  after_results_simp
theorem host1_keep_arg16 (W : Valuation τ sig (Elt F)) : after hostOps1 W (Proc.devRef .tc main_arg16) = W (Proc.devRef .tc main_arg16) := by
  after_results_simp

attribute [local irreducible] Host.scatterAdd Host.gather in
/-- After the second host stretch the message buffer holds region 1's output moved along the bipartite edges. -/
theorem host2_bipartite (W : Valuation τ sig (Elt F)) :
    after hostOps2 W (Proc.devRef .tc main_call0_v62)
      = Cert.Shared.bipartite (F := F) (W (Proc.devRef .tc main_call0_v48)) (W (Proc.devRef .tc main_arg6)) := by
  after_results_simp
  simp only [TRef.ofBuf, TRef.toBuf, cast_eq]
  rfl

/-- The last bias as a row. -/
theorem host2_bias (W : Valuation τ sig (Elt F)) :
    after hostOps2 W (Proc.devRef .tc main_call0_v63) = shapeCast S1x10 (W (Proc.devRef .tc main_arg16)) Facts₀.shapeCasts_S10_S1x10 := by
  after_results_simp
  try simp only [TRef.ofBuf, TRef.toBuf, cast_eq]
  rfl

theorem host2_keep_arg15 (W : Valuation τ sig (Elt F)) : after hostOps2 W (Proc.devRef .tc main_arg15) = W (Proc.devRef .tc main_arg15) := by
  after_results_simp

end Cert.KHost

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KRegion0.lean ====
/-
  Region 0 computes the first dense layer, block by block.

  The grid has 10 points; point t holds rows 5000 t … 5000 t + 4999 of the node features, the whole weight matrix,
  and leaves in its output block the matrix product of the two (the conversion of the operands to the product's input
  format is the identity on the extended reals, and the product accumulates into zero).  Entry (p, q) of that block
  is therefore  ∑ k < 128, x(5000 t + p, k) * w(k, q),  which is entry (5000 t + p, q) of the whole product x @ w:
  a row of a matrix product depends on that row of the left operand only.  Every row r lies in the block of point
  r / 5000, and every point writes its block back, so after the last write-back the output array is x @ w.
-/
import proofs.«426197_j26972394619794_2_alg».proof.Proof.Gen.KernelIdeal.Frame
import proofs.«426197_j26972394619794_2_alg».proof.Proof.Shared
import proofs.«426197_j26972394619794_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion.Dense0

open Idealize.ShloMosaic Idealize.ShloMosaic.TcCoe Idealize.SL.Sem Idealize.ShloMosaic.ValueIdx
open Cert.KernelIdeal Cert.KernelIdeal.Gen

/-- Entry (r, q) of the whole product x @ w is the sum over k < 128 of x(r, k) * w(k, q). -/
theorem dense0_apply (x : FVec Ideal S50000x128 .f32) (w : FVec Ideal S128x128 .f32) (r : Fin 50000) (q : Fin 128) :
    Cert.Shared.dense0 (F := Ideal) x w (ix2 r q) = ∑ k : Fin 128, x (ix2 r k) * w (ix2 k q) := by
  unfold Cert.Shared.dense0
  simp only [Host.dotGeneral]
  rw [Ideal.dotGeneral_apply]
  exact PlainDot.sum_eq _ rfl rfl rfl rfl rfl rfl x w r q

/-- Entry (p, q) of a point's product, of a block of 5000 rows with the weight matrix, is the same sum over the
    block's row p: the operands' change of format is the identity, and the accumulator starts at zero. -/
theorem block_product_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  refine (Ideal.matmul_constant_zero_apply _ none _ _ _).trans ?_
  exact PlainDot.sum_eq _ rfl rfl rfl rfl rfl rfl x0 x1 p q

/-- The body reads and writes its buffers whole: from offset zero on both axes. -/
theorem zero_offsets : (![0, 0] : Fin 2 → Nat) = fun _ => 0 :=
  funext fun a => match a with | ⟨0, _⟩ => rfl | ⟨1, _⟩ => rfl

/-- The block indices over the grid: at point t the feature rows and the output rows are block (t, 0); the weight
    matrix is always block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row p of point t's feature block is row 5000 t + p of the feature array. -/
theorem rows_block_apply (c : Dev nD) (t : Fin cfg0.N) (p : Fin 5000) (k : Fin 128) (r : Fin 50000)
    (hr : r.val = t.val * 5000 + p.val) :
    (iblk0 V c 0 t : Vec Ideal S5000x128 .f32) (ix2 p k) = (V c main_arg1 : S50000x128.Idx → Elt Ideal .f32) (ix2 r k) := by
  obtain ⟨e0, e1, -⟩ := block_indices t
  unfold iblk0
  rw [View.read_apply]
  show V c main_arg1 _ = V c main_arg1 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Every point's weight block is the weight array. -/
theorem weights_block_apply (c : Dev nD) (t : Fin cfg0.N) (k : Fin 128) (q : Fin 128) :
    (iblk0 V c 1 t : Vec Ideal S128x128 .f32) (ix2 k q) = (V c main_arg9 : S128x128.Idx → Elt Ideal .f32) (ix2 k q) := by
  obtain ⟨-, -, e0, e1, -⟩ := block_indices t
  unfold iblk0
  rw [View.read_apply]
  show V c main_arg9 _ = V c main_arg9 _
  congr 1
  funext a
  apply Fin.ext
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- What point t writes back is rows 5000 t … 5000 t + 4999 of the whole product: entry (p, q) of its block and
    entry (5000 t + p, q) of x @ w are the same sum, term by term. -/
theorem written_block (c : Dev nD) (t : Fin cfg0.N) :
    (dat0 V c).flushed 2 t = ((cfg0.win 2).blk t).view.read (Elt Ideal) (Cert.Shared.dense0 (F := Ideal) (V c main_arg1) (V c main_arg9)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext y
  obtain ⟨p, q, rfl⟩ : ∃ (p : Fin 5000) (q : Fin 128), y = ix2 p q := ⟨y 0, y 1, eq_ix2 y⟩
  obtain ⟨-, -, -, -, e0, e1⟩ := block_indices t
  have hr : t.val * 5000 + p.val < 50000 := by have := t.isLt; have : cfg0.N = 10 := N_0; omega
  show k0_pay1 (iblk0 V c 0 t) (iblk0 V c 1 t) (ix2 p q) = Cert.Shared.dense0 (F := Ideal) (V c main_arg1) (V c main_arg9) (((cfg0.win 2).blk t).view.emb (ix2 p q))
  have hemb : ((cfg0.win 2).blk t).view.emb (ix2 p q) = (ix2 (⟨t.val * 5000 + p.val, hr⟩ : Fin 50000) q : S50000x128.Idx) := by
    funext a; apply Fin.ext
    match a with
    | ⟨0, _⟩ => show win0_2.index t (0 : Fin 2) * 5000 + 1 * p.val = t.val * 5000 + p.val; rw [e0]; omega
    | ⟨1, _⟩ => show win0_2.index t (1 : Fin 2) * 128 + 1 * q.val = q.val; rw [e1]; omega
  rw [hemb]
  refine (block_product_apply (iblk0 V c 0 t) (iblk0 V c 1 t) p q).trans ?_
  refine ((dense0_apply (V c main_arg1) (V c main_arg9) ⟨t.val * 5000 + p.val, hr⟩ q).trans ?_).symm
  refine Finset.sum_congr rfl fun k _ => ?_
  rw [rows_block_apply V c t p k ⟨_, hr⟩ rfl, weights_block_apply V c t k q]

/-- An entry of the output array is in point t's block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_call0_v0).slice (win0_2.rect t)).set ↔ _
  rw [View.set_slice_whole, Rect.mem_set_unit]
  exact Iff.rfl

/-- Row r of the output array lies in the block of point r / 5000, which is written back. -/
theorem rows_covered (i : S50000x128.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 128 := (i 1).isLt
  let t : Fin cfg0.N := ⟨(i 0).val / 5000, by omega⟩
  obtain ⟨-, -, -, -, e0, e1⟩ := block_indices t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 128 ≤ (i 1).val ∧ (i 1).val < win0_2.index t (1 : Fin 2) * 128 + 128; rw [e1]; omega

end Cert.KRegion.Dense0

namespace Cert.KRegion

open Idealize.ShloMosaic Idealize.ShloMosaic.TcCoe Idealize.SL.Sem Idealize.ShloMosaic.ValueIdx
open Cert.KernelIdeal Cert.KernelIdeal.Gen

/-- Region 0 leaves in its output array the first dense layer of its two input arrays. -/
theorem region0 (V : (c : Dev nD) → (b : Ref sig .tc) → Buf (Elt Ideal) ((c : Thread nD τ).loc b)) (c : Dev nD) :
    (dat0 V c).arrAt 2 cfg0.N = Cert.Shared.dense0 (F := Ideal) (V c main_arg1) (V c main_arg9) :=
  (dat0 V c).arrAt_eq_of_cover 2 _ (fun t _ => Dense0.written_block V c t) Dense0.rows_covered

end Cert.KRegion

end
-- ==== Proof.KRegion1.lean ====
/-
  The second dense layer, read off the pipelined region that computes it.

  The region walks ten row blocks of 5000 rows.  At block t it holds rows 5000 t … 5000 t + 4999 of the aggregate g
  (a [50000, 128] array), the bias b as one row [1, 128], the weights W as a whole [128, 64] array and the bias b' as
  one row [1, 64], and writes rows 5000 t … 5000 t + 4999 of the [50000, 64] result.  Entry (p, q) of the block it
  writes is

      (∑ k < 128, elu (g (5000 t + p, k) + b k) * W (k, q)) + b' q,

  where elu x = x for x > 0 and exp x - 1 otherwise.  The same formula, at row r = 5000 t + p, is entry (r, q) of the
  whole-array layer elu (g + b) W + b'.  So every block written back is the restriction of that one array to the
  block's rows, and since row r lies in block r / 5000 the ten blocks fill the result array.

  The two sides spell ELU differently: the blocks compute select (x > 0, x, exp (min x 0) - 1), the whole-array layer
  select (x > 0, x, 1 * (exp (select (x > 0, 0, x)) - 1)).  Both are elu on every extended real: where x > 0 both
  give x; elsewhere min x 0 = x, the inner select gives x, and 1 * y = y.
-/
import proofs.«426197_j26972394619794_2_alg».proof.Proof.Gen.KernelIdeal.Frame
import proofs.«426197_j26972394619794_2_alg».proof.Proof.Shared
import proofs.«426197_j26972394619794_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion.Dense1

open Idealize.ShloMosaic Idealize.ShloMosaic.TcCoe Idealize.SL.Sem Idealize.ShloMosaic.ValueIdx
open Cert.KernelIdeal Cert.KernelIdeal.Gen

/-! ## ELU on the extended reals, and its two spellings -/

/-- ELU: the identity above zero, exp x - 1 at and below it. -/
def elu (x : EReal) : EReal := if 0 < x then x else Ideal.exp x - 1

/-- The word 0x3F800000 is the number one: sign 0, exponent 127, fraction 0, read as 2^23 / 2^23. -/
theorem one_f32 : Ideal.ofBits .f32 0x3F800000#32 = 1 := by
  simp [Ideal.ofBits, Ideal.ieee, ← EReal.coe_mul]
  norm_num

/-- select (h > 0, h, exp (min h 0) - 1) is ELU: where h ≤ 0 the minimum is h itself. -/
theorem elu_of_min (h : EReal) :
    Scalar.select (Ideal.cmp .ogt h (Ideal.ofBits .f32 0x00000000#32)) h
      (Ideal.exp (min h (Ideal.ofBits .f32 0x00000000#32)) - Ideal.ofBits .f32 0x3F800000#32) = elu h := by
  rw [Ideal.ofBits_zero_f32, one_f32]
  unfold elu Ideal.cmp
  by_cases hp : 0 < h
  · simp [hp, Scalar.select]
  · have hm : min h 0 = h := min_eq_left (not_lt.mp hp)
    simp [hp, hm, Scalar.select]

/-- select (h > 0, h, 1 * (exp (select (h > 0, 0, h)) - 1)) is ELU: where h ≤ 0 the inner select is h, and 1 * y = y. -/
theorem elu_of_select (h : EReal) :
    Scalar.select (Ideal.cmp .ogt h (Ideal.ofBits .f32 0x00000000#32)) h
      (Ideal.ofBits .f32 0x3F800000#32 * (Ideal.exp (Scalar.select (Ideal.cmp .ogt h (Ideal.ofBits .f32 0x00000000#32))
        (Ideal.ofBits .f32 0x00000000#32) h) - 1)) = elu h := by
  rw [Ideal.ofBits_zero_f32, one_f32]
  unfold elu Ideal.cmp
  by_cases hp : 0 < h
  · simp [hp, Scalar.select]
  · simp [hp, Scalar.select]

/-! ## One block's entries -/

/-- Entry (p, q) of what a block's arithmetic produces from a [5000, 128] block x0, a bias row x1, the weights x2 and
    a bias row x3: the product into the zero accumulator is the plain sum over the 128 columns of elu (x0 + x1) times
    x2, the casts between formats being the identity on the extended reals, and the second bias row is added. -/
theorem block_apply (x0 : Vec Ideal S5000x128 .f32) (x1 : Vec Ideal S1x128 .f32) (x2 : Vec Ideal S128x64 .f32)
    (x3 : Vec Ideal S1x64 .f32) (p : Fin 5000) (q : Fin 64) :
    k1_pay1 (F := Ideal) x0 x1 x2 x3 (ix2 p q)
      = (∑ k : Fin 128, elu (x0 (ix2 p k) + x1 (ix2 (0 : Fin 1) k)) * x2 (ix2 k q)) + x3 (ix2 (0 : Fin 1) q) := by
  unfold k1_pay1
  simp only [shapeCast_self]
  refine (addf_apply _ _ _).trans ?_
  congr 1
  · refine (Ideal.matmul_constant_zero_apply _ none _ _ _).trans ?_
    refine (PlainDot.sum_eq (R := 5000) (K := 128) (C := 64) dot_S5000x128_S128x64_S5000x64_1_0_0_1_n_n
      rfl rfl rfl rfl rfl rfl _ _ p q).trans ?_
    refine Finset.sum_congr rfl fun k _ => ?_
    congr 1
    refine Eq.trans ?_ (elu_of_min _)
    rw [← broadcastTo_1b_ab_apply x1 broadcasts_S1x128_S5000x128 p k]
    rfl
  · exact broadcastTo_1b_ab_apply _ _ p q

/-! ## The whole-array layer's entries -/

/-- A bias vector laid as one row and repeated down the rows reads, at (r, q), the vector at q. -/
theorem bias_rows_apply {α : Type} {R C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (r : Fin R) (q : Fin C) :
    broadcastInDim ⟨2, ![R, C]⟩ ![0, 1] h2 (broadcastInDim ⟨2, ![1, C]⟩ ![1] h1 b) (ix2 r q) = b (ix1 q) := by
  have hq : q.val = if C = 1 then 0 else q.val := by
    split
    · have := q.isLt; omega
    · rfl
  refine (broadcastInDim_apply _ h2 _ (ix2 r q) (ix2 (0 : Fin 1) q) fun a => ?_).trans
    (broadcastInDim_apply _ h1 _ (ix2 (0 : Fin 1) q) (ix1 q) fun a => ?_)
  · match a with
    | ⟨0, _⟩ => rfl
    | ⟨1, _⟩ => exact hq
  · match a with
    | ⟨0, _⟩ => exact hq

/-- Entry (r, q) of elu (g + b) W + b' on whole arrays: the same sum over the 128 columns, at row r. -/
theorem dense1_apply (g : FVec Ideal Cert.ReferenceIdeal.S50000x128 .f32) (b : FVec Ideal Cert.ReferenceIdeal.S128 .f32)
    (w : FVec Ideal Cert.ReferenceIdeal.S128x64 .f32) (b' : FVec Ideal Cert.ReferenceIdeal.S64 .f32)
    (r : Fin 50000) (q : Fin 64) :
    Cert.Shared.dense1 (F := Ideal) g b w b' (ix2 r q)
      = (∑ k : Fin 128, elu (g (ix2 r k) + b (ix1 k)) * w (ix2 k q)) + b' (ix1 q) := by
  unfold Cert.Shared.dense1
  refine (addf_apply _ _ _).trans ?_
  congr 1
  · refine (Ideal.dotGeneral_apply _ none .single _ _ _).trans ?_
    refine (PlainDot.sum_eq (R := 50000) (K := 128) (C := 64)
      Cert.ReferenceIdeal.dot_S50000x128_S128x64_S50000x64_1_0_0_1_n_n rfl rfl rfl rfl rfl rfl _ _ r q).trans ?_
    refine Finset.sum_congr rfl fun k _ => ?_
    congr 1
    refine Eq.trans ?_ (elu_of_select _)
    rw [← bias_rows_apply b Cert.ReferenceIdeal.Facts₀.bcast_S128_S1x128_1
      Cert.ReferenceIdeal.Facts₀.bcast_S1x128_S50000x128_0_1 r k]
    rfl
  · exact bias_rows_apply b' _ _ r q

/-- A block's entry (p, q) is the whole-array layer's entry (r, q), when row p of the block's input is row r of the
    input array, the two bias blocks are the bias vectors as rows, and the weight block is the weight array. -/
theorem block_eq_dense1 (g : FVec Ideal Cert.ReferenceIdeal.S50000x128 .f32) (b : FVec Ideal Cert.ReferenceIdeal.S128 .f32)
    (w : FVec Ideal Cert.ReferenceIdeal.S128x64 .f32) (b' : FVec Ideal Cert.ReferenceIdeal.S64 .f32)
    (x0 : Vec Ideal S5000x128 .f32) (x1 : Vec Ideal S1x128 .f32) (x2 : Vec Ideal S128x64 .f32) (x3 : Vec Ideal S1x64 .f32)
    (p : Fin 5000) (q : Fin 64) (r : Fin 50000)
    (h0 : ∀ k : Fin 128, x0 (ix2 p k) = g (ix2 r k)) (h1 : ∀ k : Fin 128, x1 (ix2 (0 : Fin 1) k) = b (ix1 k))
    (h2 : ∀ (k : Fin 128) (q : Fin 64), x2 (ix2 k q) = w (ix2 k q)) (h3 : ∀ q : Fin 64, x3 (ix2 (0 : Fin 1) q) = b' (ix1 q)) :
    k1_pay1 (F := Ideal) x0 x1 x2 x3 (ix2 p q) = Cert.Shared.dense1 (F := Ideal) g b w b' (ix2 r q) := by
  rw [block_apply, dense1_apply]
  congr 1
  · exact Finset.sum_congr rfl fun k _ => by rw [h0, h1, h2]
  · exact h3 q

/-! ## From the ten blocks to the array -/

theorem zero_offsets : (![0, 0] : Fin 2 → Nat) = fun _ => 0 := funext fun a => by fin_cases a <;> rfl

/-- The block indices at grid point t, decided over the ten points: the row-blocked input and the output sit at block
    row t, block column 0; the bias rows and the weights at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole-array layer of the input arrays: an element of a block sits in
    its array, on each axis, at block index × block size + its coordinate inside the block, so entry (p, q) of the
    output block is array entry (5000 t + p, q), row p of the input block is array row 5000 t + p, and the bias and
    weight blocks are their whole arrays; the two bias arrays are the bias vectors recast as one row. -/
theorem written_back_eq (V : (c : Dev nD) → (b : Ref sig .tc) → Buf (Elt Ideal) ((c : Thread nD τ).loc b)) (c : Dev nD)
    (b : FVec Ideal S128 .f32) (b' : FVec Ideal S64 .f32)
    (hb : V c main_call0_v46 = shapeCast S1x128 b Facts₀.shapeCasts_S128_S1x128)
    (hb' : V c main_call0_v47 = shapeCast S1x64 b' Facts₀.shapeCasts_S64_S1x64) (t : Fin cfg1.N) :
    (dat1 V c).flushed 4 t = ((cfg1.win 4).blk t).view.read (Elt Ideal)
      (Cert.Shared.dense1 (F := Ideal) (V c main_call0_v45) b (V c main_arg11) b') := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S1x128) zero_offsets,
    View.ld_unit_zero (S := S128x64) zero_offsets, View.ld_unit_zero (S := S1x64) zero_offsets]
  obtain ⟨e00, e01, e10, e11, e20, e21, e30, e31, e40, e41⟩ := block_indices t
  funext y
  obtain ⟨p, q, rfl⟩ : ∃ (p : Fin 5000) (q : Fin 64), y = ix2 p q := ⟨y 0, y 1, eq_ix2 y⟩
  have ht : t.val < 10 := lt_of_lt_of_eq t.isLt N_1
  have hr : t.val * 5000 + p.val < 50000 := by have := p.isLt; omega
  show k1_pay1 (F := Ideal) (iblk1 V c 0 t) (iblk1 V c 1 t) (iblk1 V c 2 t) (iblk1 V c 3 t) (ix2 p q)
    = Cert.Shared.dense1 (F := Ideal) (V c main_call0_v45) b (V c main_arg11) b' (((cfg1.win 4).blk t).view.emb (ix2 p q))
  have he : ((cfg1.win 4).blk t).view.emb (ix2 p q) = ix2 (⟨t.val * 5000 + p.val, hr⟩ : Fin 50000) q := by
    funext a; apply Fin.ext
    match a with
    | ⟨0, _⟩ => show win1_4.index t (0 : Fin 2) * 5000 + 1 * p.val = t.val * 5000 + p.val; rw [e40]; omega
    | ⟨1, _⟩ => show win1_4.index t (1 : Fin 2) * 64 + 1 * q.val = q.val; rw [e41]; omega
  refine Eq.trans ?_ (congrArg (Cert.Shared.dense1 (F := Ideal) (V c main_call0_v45) b (V c main_arg11) b') he).symm
  refine block_eq_dense1 (V c main_call0_v45) b (V c main_arg11) b' (iblk1 V c 0 t) (iblk1 V c 1 t) (iblk1 V c 2 t)
    (iblk1 V c 3 t) p q ⟨t.val * 5000 + p.val, hr⟩ ?_ ?_ ?_ ?_
  · intro k
    show V c main_call0_v45 (((cfg1.win 0).blk t).view.emb (ix2 p k)) = _
    refine congrArg (V c main_call0_v45) ?_
    funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · intro k
    show V c main_call0_v46 (((cfg1.win 1).blk t).view.emb (ix2 (0 : Fin 1) k)) = _
    rw [hb]
    refine Eq.trans (congrArg _ ?_) (shapeCast_a_1a_apply b Facts₀.shapeCasts_S128_S1x128 0 k)
    funext a; apply Fin.ext
    match a with
    | ⟨0, _⟩ => show win1_1.index t (0 : Fin 2) * 1 + 1 * 0 = 0; rw [e10]
    | ⟨1, _⟩ => show win1_1.index t (1 : Fin 2) * 128 + 1 * k.val = k.val; rw [e11]; omega
  · intro k q'
    show V c main_arg11 (((cfg1.win 2).blk t).view.emb (ix2 k q')) = _
    refine congrArg (V c main_arg11) ?_
    funext a; apply Fin.ext
    match a with
    | ⟨0, _⟩ => show win1_2.index t (0 : Fin 2) * 128 + 1 * k.val = k.val; rw [e20]; omega
    | ⟨1, _⟩ => show win1_2.index t (1 : Fin 2) * 64 + 1 * q'.val = q'.val; rw [e21]; omega
  · intro q'
    show V c main_call0_v47 (((cfg1.win 3).blk t).view.emb (ix2 (0 : Fin 1) q')) = _
    rw [hb']
    refine Eq.trans (congrArg _ ?_) (shapeCast_a_1a_apply b' Facts₀.shapeCasts_S64_S1x64 0 q')
    funext a; apply Fin.ext
    match a with
    | ⟨0, _⟩ => show win1_3.index t (0 : Fin 2) * 1 + 1 * 0 = 0; rw [e30]
    | ⟨1, _⟩ => show win1_3.index t (1 : Fin 2) * 64 + 1 * q'.val = q'.val; rw [e31]; omega

/-- An index of the output array is in point t's block iff each coordinate is in the block's range on its axis. -/
theorem mem_block (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_call0_v48).slice (win1_4.rect t)).set ↔ _
  rw [View.set_slice_whole, Rect.mem_set_unit]
  exact Iff.rfl

/-- Row r of the output array is written back by point r / 5000, and every point writes back. -/
theorem covered (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e40, e41⟩ := block_indices t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    rw [e40, ht]; omega
  | ⟨1, _⟩ =>
    show win1_4.index t (1 : Fin 2) * 64 ≤ (i 1).val ∧ (i 1).val < win1_4.index t (1 : Fin 2) * 64 + 64
    rw [e41]; omega

end Cert.KRegion.Dense1

namespace Cert.KRegion

open Idealize.ShloMosaic Idealize.ShloMosaic.TcCoe Idealize.SL.Sem Idealize.ShloMosaic.ValueIdx
open Cert.KernelIdeal Cert.KernelIdeal.Gen

/-- Region 1 leaves in its output array the second dense layer of its input arrays, the two bias rows read as the
    flat bias vectors they are reshapes of. -/
theorem region1 (V : (c : Dev nD) → (b : Ref sig .tc) → Buf (Elt Ideal) ((c : Thread nD τ).loc b)) (c : Dev nD)
    (b : FVec Ideal S128 .f32) (b' : FVec Ideal S64 .f32)
    (hb : V c main_call0_v46 = shapeCast S1x128 b Facts₀.shapeCasts_S128_S1x128)
    (hb' : V c main_call0_v47 = shapeCast S1x64 b' Facts₀.shapeCasts_S64_S1x64) :
    (dat1 V c).arrAt 4 cfg1.N = Cert.Shared.dense1 (F := Ideal) (V c main_call0_v45) b (V c main_arg11) b' :=
  (dat1 V c).arrAt_eq_of_cover 4 (Cert.Shared.dense1 (F := Ideal) (V c main_call0_v45) b (V c main_arg11) b')
    (fun t _ => Dense1.written_back_eq V c b b' hb hb' t) Dense1.covered

end Cert.KRegion

end
-- ==== Proof.KRegion2.lean ====
/-
  Region 2 computes the last dense layer, block by block.

  The grid has 10 points; point t holds rows 5000 t … 5000 t + 4999 of the messages, the whole weight matrix and
  the bias row, and leaves in its output block  elu(block) @ W + bias  — the exponential linear unit written as
  "x where x > 0, else exp(min(x, 0)) - 1".  The whole-array layer writes the unit as "x where x > 0, else
  1 * (exp(y) - 1) with y = 0 where x > 0, x elsewhere".  On every extended real the two are the same function
  `elu`: where x > 0 both are x; elsewhere min(x, 0) = x, the inner choice is x, and 1 * z = z.

  Entry (p, q) of point t's block is therefore  (∑ k < 64, elu(x(5000 t + p, k)) * w(k, q)) + bias(q),  which is
  entry (5000 t + p, q) of the whole layer: a row of the layer depends on that row of the messages only.  The bias
  row the region reads is the flat bias vector laid out as one row, so its entry (0, q) is the vector's entry q.
  Every row r lies in the block of point r / 5000, and every point writes its block back, so after the last
  write-back the output array is the whole layer.
-/
import proofs.«426197_j26972394619794_2_alg».proof.Proof.Gen.KernelIdeal.Frame
import proofs.«426197_j26972394619794_2_alg».proof.Proof.Shared
import proofs.«426197_j26972394619794_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KRegion.Dense2

open Idealize.ShloMosaic Idealize.ShloMosaic.TcCoe Idealize.SL.Sem Idealize.ShloMosaic.ValueIdx
open Cert.KernelIdeal Cert.KernelIdeal.Gen

/-- The exponential linear unit on the extended reals: y above zero, exp(y) - 1 elsewhere. -/
def elu (y : EReal) : EReal := if 0 < y then y else Ideal.exp y - 1

/-- The word 0x3F800000 denotes 1: exponent field 127 (the bias), significand field 0. -/
theorem one_word : Ideal.ofBits .f32 0x3F800000#32 = 1 := by
  simp [Ideal.ofBits, Ideal.ieee, -EReal.coe_mul]
  norm_num

/-- The block's form of the unit, "h where h > 0, else exp(min(h, 0)) - 1", is `elu`: where h is not above zero,
    min(h, 0) = h. -/
theorem kernel_elu (h : Ideal .f32) :
    Scalar.select (FloatOps.cmpf .ogt h (Scalar.ofBits .f32 0x00000000#32)) h
      (FloatOps.subf (FloatOps.exp (FloatOps.minimumf h (Scalar.ofBits .f32 0x00000000#32))) (Scalar.ofBits .f32 0x3F800000#32)) = elu h := by
  have hs : ∀ b : BitVec 32, Scalar.ofBits (F := Ideal) .f32 b = Ideal.ofBits .f32 b := fun _ => rfl
  simp only [hs, Ideal.cmpf_def, Ideal.cmp, Ideal.ofBits_zero_f32, one_word, Ideal.subf_def, Ideal.exp_def, Ideal.minimumf_def]
  unfold elu
  by_cases hp : (0 : EReal) < h
  · rw [if_pos hp]; simp [Scalar.select, hp]
  · rw [if_neg hp, min_eq_left (not_lt.mp hp)]; simp [Scalar.select, hp]

/-- The whole-array form of the unit, "y where y > 0, else 1 * (exp(y') - 1)" with y' = 0 where y > 0 and y
    elsewhere, is `elu`: the second branch is only taken where y' = y, and 1 * z = z. -/
theorem reference_elu (y : Ideal .f32) :
    Scalar.select (FloatOps.cmpf .ogt y (Ideal.ofBits .f32 0x00000000#32)) y
      (FloatOps.mulf (Ideal.ofBits .f32 0x3F800000#32) (FloatOps.hostUnary .expm1
        (Scalar.select (FloatOps.cmpf .ogt y (Ideal.ofBits .f32 0x00000000#32)) (Ideal.ofBits .f32 0x00000000#32) y))) = elu y := by
  simp only [Ideal.cmpf_def, Ideal.cmp, Ideal.ofBits_zero_f32, one_word, Ideal.hostUnary_expm1_def, Ideal.mulf_def]
  unfold elu
  by_cases hp : (0 : EReal) < y
  · rw [if_pos hp]; simp [Scalar.select, hp]
  · rw [if_neg hp]; simp [Scalar.select, hp]

/-- Entry (p, q) of a point's layer, of a block of 5000 rows with the weights and the bias row: the sum over k < 64 of
    elu(block(p, k)) * w(k, q), plus the bias row's entry q.  The operands' change of format is the identity, the
    accumulator starts at zero, and the one bias row is repeated on every row. -/
theorem block_layer_apply (v0 : Vec Ideal S5000x64 .f32) (v11 : Vec Ideal S64x10 .f32) (v14 : Vec Ideal S1x10 .f32) (p : Fin 5000) (q : Fin 10) :
    k2_pay1 v0 v11 v14 (ix2 p q) = (∑ k : Fin 64, elu (v0 (ix2 p k)) * v11 (ix2 k q)) + v14 (ix2 (0 : Fin 1) q) := by
  unfold k2_pay1
  refine (addf_apply _ _ _).trans ?_
  congr 1
  · refine (Ideal.matmul_constant_zero_apply _ none _ _ _).trans ?_
    refine (Finset.sum_congr rfl fun k _ => ?_).trans (PlainDot.sum_eq dot_S5000x64_S64x10_S5000x10_1_0_0_1_n_n rfl rfl rfl rfl rfl rfl (fun i => elu (v0 i)) v11 p q)
    refine congrArg₂ (· * ·) ?_ rfl
    simp only [shapeCast_self]
    exact kernel_elu _
  · rw [broadcastTo_1b_ab_apply, shapeCast_self]

/-- The whole-array unit at an entry is `elu` of the entry. -/
theorem eluNarrow_apply (x : FVec Ideal S50000x64 .f32) (j : S50000x64.Idx) :
    Cert.Shared.eluNarrow (F := Ideal) x j = elu (x j) := by
  unfold Cert.Shared.eluNarrow
  exact reference_elu (x j)

/-- Entry (r, q) of the whole layer: the sum over k < 64 of elu(x(r, k)) * w(k, q), plus the bias vector's entry q (the
    vector is laid out as one row, and that row repeated on every row). -/
theorem dense2_apply (x : FVec Ideal S50000x64 .f32) (w : FVec Ideal S64x10 .f32) (b : FVec Ideal S10 .f32) (r : Fin 50000) (q : Fin 10) :
    Cert.Shared.dense2 (F := Ideal) x w b (ix2 r q) = (∑ k : Fin 64, elu (x (ix2 r k)) * w (ix2 k q)) + b (ix1 q) := by
  unfold Cert.Shared.dense2
  refine (addf_apply _ _ _).trans ?_
  congr 1
  · simp only [Host.dotGeneral]
    rw [Ideal.dotGeneral_apply]
    refine (Finset.sum_congr rfl fun k _ => ?_).trans (PlainDot.sum_eq Cert.ReferenceIdeal.dot_S50000x64_S64x10_S50000x10_1_0_0_1_n_n rfl rfl rfl rfl rfl rfl (fun i => elu (x i)) w r q)
    rw [eluNarrow_apply]
  · refine (broadcastInDim_apply _ _ _ (ix2 r q) (ix2 (0 : Fin 1) q) fun a => ?_).trans (broadcastInDim_apply _ _ _ (ix2 (0 : Fin 1) q) (ix1 q) fun a => ?_)
    · match a with
      | ⟨0, _⟩ => rfl
      | ⟨1, _⟩ => rfl
    · match a with
      | ⟨0, _⟩ => rfl

/-- The body reads and writes its buffers whole: from offset zero on both axes. -/
theorem zero_offsets : (![0, 0] : Fin 2 → Nat) = fun _ => 0 :=
  funext fun a => match a with | ⟨0, _⟩ => rfl | ⟨1, _⟩ => rfl

/-- The block indices over the grid: at point t the message rows and the output rows are block (t, 0); the weight
    matrix and the bias row are always block (0, 0). -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Row p of point t's message block is row 5000 t + p of the message array. -/
theorem rows_block_apply (c : Dev nD) (t : Fin cfg2.N) (p : Fin 5000) (k : Fin 64) (r : Fin 50000)
    (hr : r.val = t.val * 5000 + p.val) :
    (iblk2 V c 0 t : Vec Ideal S5000x64 .f32) (ix2 p k) = (V c main_call0_v62 : S50000x64.Idx → Elt Ideal .f32) (ix2 r k) := by
  obtain ⟨e0, e1, -⟩ := block_indices t
  unfold iblk2
  rw [View.read_apply]
  show V c main_call0_v62 _ = V c main_call0_v62 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 64 + 1 * k.val = k.val; rw [e1]; omega

/-- Every point's weight block is the weight array. -/
theorem weights_block_apply (c : Dev nD) (t : Fin cfg2.N) (k : Fin 64) (q : Fin 10) :
    (iblk2 V c 1 t : Vec Ideal S64x10 .f32) (ix2 k q) = (V c main_arg15 : S64x10.Idx → Elt Ideal .f32) (ix2 k q) := by
  obtain ⟨-, -, e0, e1, -⟩ := block_indices t
  unfold iblk2
  rw [View.read_apply]
  show V c main_arg15 _ = V c main_arg15 _
  congr 1
  funext a
  apply Fin.ext
  match a with
  | ⟨0, _⟩ => show win2_1.index t (0 : Fin 2) * 64 + 1 * k.val = k.val; rw [e0]; omega
  | ⟨1, _⟩ => show win2_1.index t (1 : Fin 2) * 10 + 1 * q.val = q.val; rw [e1]; omega

/-- Every point's bias block is the bias row. -/
theorem bias_block_apply (c : Dev nD) (t : Fin cfg2.N) (q : Fin 10) :
    (iblk2 V c 2 t : Vec Ideal S1x10 .f32) (ix2 (0 : Fin 1) q) = (V c main_call0_v63 : S1x10.Idx → Elt Ideal .f32) (ix2 (0 : Fin 1) q) := by
  obtain ⟨-, -, -, -, e0, e1, -⟩ := block_indices t
  unfold iblk2
  rw [View.read_apply]
  show V c main_call0_v63 _ = V c main_call0_v63 _
  congr 1
  funext a
  apply Fin.ext
  match a with
  | ⟨0, _⟩ => show win2_2.index t (0 : Fin 2) * 1 + 1 * 0 = 0; rw [e0]
  | ⟨1, _⟩ => show win2_2.index t (1 : Fin 2) * 10 + 1 * q.val = q.val; rw [e1]; omega

/-- What point t writes back is rows 5000 t … 5000 t + 4999 of the whole layer: entry (p, q) of its block and entry
    (5000 t + p, q) of the layer are the same sum, term by term, plus the same bias entry. -/
theorem written_block (c : Dev nD) (b : FVec Ideal S10 .f32)
    (hb : V c main_call0_v63 = shapeCast S1x10 b Facts₀.shapeCasts_S10_S1x10) (t : Fin cfg2.N) :
    (dat2 V c).flushed 3 t = ((cfg2.win 3).blk t).view.read (Elt Ideal) (Cert.Shared.dense2 (F := Ideal) (V c main_call0_v62) (V c main_arg15) b) := by
  show (cfg2.win 3).cut (grid2.coords t) ((dat2 V c).after 3 t) = _
  rw [after2_3]
  unfold out2_3
  rw [View.canon_unit_zero zero_offsets]
  simp only [View.ld_unit_zero (S := S5000x64) zero_offsets, View.ld_unit_zero (S := S64x10) zero_offsets, View.ld_unit_zero (S := S1x10) zero_offsets]
  funext y
  obtain ⟨p, q, rfl⟩ : ∃ (p : Fin 5000) (q : Fin 10), y = ix2 p q := ⟨y 0, y 1, eq_ix2 y⟩
  obtain ⟨-, -, -, -, -, -, e0, e1⟩ := block_indices t
  have hr : t.val * 5000 + p.val < 50000 := by have := t.isLt; have : cfg2.N = 10 := N_2; omega
  show k2_pay1 (iblk2 V c 0 t) (iblk2 V c 1 t) (iblk2 V c 2 t) (ix2 p q) = Cert.Shared.dense2 (F := Ideal) (V c main_call0_v62) (V c main_arg15) b (((cfg2.win 3).blk t).view.emb (ix2 p q))
  have hemb : ((cfg2.win 3).blk t).view.emb (ix2 p q) = (ix2 (⟨t.val * 5000 + p.val, hr⟩ : Fin 50000) q : S50000x10.Idx) := by
    funext a; apply Fin.ext
    match a with
    | ⟨0, _⟩ => show win2_3.index t (0 : Fin 2) * 5000 + 1 * p.val = t.val * 5000 + p.val; rw [e0]; omega
    | ⟨1, _⟩ => show win2_3.index t (1 : Fin 2) * 10 + 1 * q.val = q.val; rw [e1]; omega
  rw [hemb]
  refine (block_layer_apply (iblk2 V c 0 t) (iblk2 V c 1 t) (iblk2 V c 2 t) p q).trans ?_
  refine ((dense2_apply (V c main_call0_v62) (V c main_arg15) b ⟨t.val * 5000 + p.val, hr⟩ q).trans ?_).symm
  congr 1
  · refine Finset.sum_congr rfl fun k _ => ?_
    rw [rows_block_apply V c t p k ⟨_, hr⟩ rfl, weights_block_apply V c t k q]
  · rw [bias_block_apply V c t q, hb]
    exact (shapeCast_a_1a_apply b _ (0 : Fin 1) q).symm

/-- An entry of the output array is in point t's block iff each coordinate is in the block's range on its axis. -/
theorem mem_block (t : Fin cfg2.N) (i : S50000x10.Idx) :
    i ∈ ((cfg2.win 3).blk t).view.set ↔ ∀ a : Fin 2, win2_3.index t a * S5000x10.size a ≤ (i a).val ∧ (i a).val < win2_3.index t a * S5000x10.size a + S5000x10.size a := by
  show i ∈ ((View.whole main_v0).slice (win2_3.rect t)).set ↔ _
  rw [View.set_slice_whole, Rect.mem_set_unit]
  exact Iff.rfl

/-- Row r of the output array lies in the block of point r / 5000, which is written back. -/
theorem rows_covered (i : S50000x10.Idx) :
    ∃ t : Fin cfg2.N, (cfg2.win 3).flush t = true ∧ i ∈ ((cfg2.win 3).blk t).view.set := by
  have hN : cfg2.N = 10 := N_2
  have hi0 : (i 0).val < 50000 := (i 0).isLt
  have hi1 : (i 1).val < 10 := (i 1).isLt
  let t : Fin cfg2.N := ⟨(i 0).val / 5000, by omega⟩
  obtain ⟨-, -, -, -, -, -, e0, e1⟩ := block_indices t
  have ht : t.val = (i 0).val / 5000 := rfl
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 10 ≤ (i 1).val ∧ (i 1).val < win2_3.index t (1 : Fin 2) * 10 + 10; rw [e1]; omega

end Cert.KRegion.Dense2

namespace Cert.KRegion

open Idealize.ShloMosaic Idealize.ShloMosaic.TcCoe Idealize.SL.Sem Idealize.ShloMosaic.ValueIdx
open Cert.KernelIdeal Cert.KernelIdeal.Gen

/-- Region 2 leaves in its output array the last dense layer of its input arrays, the bias row read as the flat bias
    vector it is a reshape of. -/
theorem region2 (V : (c : Dev nD) → (b : Ref sig .tc) → Buf (Elt Ideal) ((c : Thread nD τ).loc b)) (c : Dev nD)
    (b : FVec Ideal S10 .f32)
    (hb : V c main_call0_v63 = shapeCast S1x10 b Facts₀.shapeCasts_S10_S1x10) :
    (dat2 V c).arrAt 3 cfg2.N = Cert.Shared.dense2 (F := Ideal) (V c main_call0_v62) (V c main_arg15) b :=
  (dat2 V c).arrAt_eq_of_cover 3 _ (fun t _ => Dense2.written_block V c b hb t) Dense2.rows_covered

end Cert.KRegion

end
-- ==== Proof.KValue.lean ====
/-
  The kernel program's result as a function of its arguments.

  The buffer contents at each boundary between the program's segments are folded from the launch memory: a region leaves
  each of its arrays at what its write-backs leave, a host stretch leaves each buffer at the fold of its operations.  Region
  0's output is the first dense layer of the arguments; the first host stretch turns it into the GCN aggregation; region 1's
  output is the second dense layer of that; the second host stretch moves it along the bipartite edges; region 2's output,
  the result buffer, is the last dense layer of that: the shared network function of the arguments.
-/
import proofs.«426197_j26972394619794_2_alg».proof.Proof.Gen.KernelIdeal.Frame
import proofs.«426197_j26972394619794_2_alg».proof.Proof.Shared
import proofs.«426197_j26972394619794_2_alg».proof.Proof.KHost
import proofs.«426197_j26972394619794_2_alg».proof.Proof.KRegion0
import proofs.«426197_j26972394619794_2_alg».proof.Proof.KRegion1
import proofs.«426197_j26972394619794_2_alg».proof.Proof.KRegion2

set_option maxRecDepth 16384

noncomputable section

namespace Cert.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## After region 0 -/

/-- Region 0's output array: the first dense layer of the features and the first weights. -/
theorem W1_v0 (c : Dev nD) :
    W1 m ρ c (Proc.devRef .tc main_call0_v0) = Cert.Shared.dense0 (F := Ideal) (m ((c : Thread nD τ).loc main_arg1)) (m ((c : Thread nD τ).loc main_arg9)) :=
  (W1_arr m ρ c 2).trans (Cert.KRegion.region0 (V0 m ρ) c)

/-- Region 0 writes none of the arguments the later segments read. -/
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)
theorem W1_arg10 (c : Dev nD) : W1 m ρ c (Proc.devRef .tc main_arg10) = m ((c : Thread nD τ).loc main_arg10) :=
  W1_of_ne m ρ c main_arg10 (by decide)
theorem W1_arg12 (c : Dev nD) : W1 m ρ c (Proc.devRef .tc main_arg12) = m ((c : Thread nD τ).loc main_arg12) :=
  W1_of_ne m ρ c main_arg12 (by decide)
theorem W1_arg11 (c : Dev nD) : W1 m ρ c (Proc.devRef .tc main_arg11) = m ((c : Thread nD τ).loc main_arg11) :=
  W1_of_ne m ρ c main_arg11 (by decide)
theorem W1_arg6 (c : Dev nD) : W1 m ρ c (Proc.devRef .tc main_arg6) = m ((c : Thread nD τ).loc main_arg6) :=
  W1_of_ne m ρ c main_arg6 (by decide)
theorem W1_arg15 (c : Dev nD) : W1 m ρ c (Proc.devRef .tc main_arg15) = m ((c : Thread nD τ).loc main_arg15) :=
  W1_of_ne m ρ c main_arg15 (by decide)
theorem W1_arg16 (c : Dev nD) : W1 m ρ c (Proc.devRef .tc main_arg16) = m ((c : Thread nD τ).loc main_arg16) :=
  W1_of_ne m ρ c main_arg16 (by decide)

/-! ## After the first host stretch -/

theorem W2_v45 (c : Dev nD) :
    W2 m ρ c (Proc.devRef .tc main_call0_v45)
      = Cert.Shared.aggregate (F := Ideal) (Cert.Shared.dense0 (F := Ideal) (m ((c : Thread nD τ).loc main_arg1)) (m ((c : Thread nD τ).loc main_arg9))) (m ((c : Thread nD τ).loc main_arg4)) (m ((c : Thread nD τ).loc main_arg5)) := by
  refine (Cert.KHost.host1_aggregate (W1 m ρ c)).trans ?_
  rw [W1_v0 m ρ c, W1_arg4 m ρ c, W1_arg5 m ρ c]

theorem W2_v46 (c : Dev nD) :
    W2 m ρ c (Proc.devRef .tc main_call0_v46) = shapeCast S1x128 (m ((c : Thread nD τ).loc main_arg10)) Facts₀.shapeCasts_S128_S1x128 := by
  refine (Cert.KHost.host1_bias_wide (W1 m ρ c)).trans ?_
  rw [W1_arg10 m ρ c]

theorem W2_v47 (c : Dev nD) :
    W2 m ρ c (Proc.devRef .tc main_call0_v47) = shapeCast S1x64 (m ((c : Thread nD τ).loc main_arg12)) Facts₀.shapeCasts_S64_S1x64 := by
  refine (Cert.KHost.host1_bias_narrow (W1 m ρ c)).trans ?_
  rw [W1_arg12 m ρ c]

theorem W2_arg11 (c : Dev nD) : W2 m ρ c (Proc.devRef .tc main_arg11) = m ((c : Thread nD τ).loc main_arg11) :=
  (Cert.KHost.host1_keep_arg11 (W1 m ρ c)).trans (W1_arg11 m ρ c)
theorem W2_arg6 (c : Dev nD) : W2 m ρ c (Proc.devRef .tc main_arg6) = m ((c : Thread nD τ).loc main_arg6) :=
  (Cert.KHost.host1_keep_arg6 (W1 m ρ c)).trans (W1_arg6 m ρ c)
theorem W2_arg15 (c : Dev nD) : W2 m ρ c (Proc.devRef .tc main_arg15) = m ((c : Thread nD τ).loc main_arg15) :=
  (Cert.KHost.host1_keep_arg15 (W1 m ρ c)).trans (W1_arg15 m ρ c)
theorem W2_arg16 (c : Dev nD) : W2 m ρ c (Proc.devRef .tc main_arg16) = m ((c : Thread nD τ).loc main_arg16) :=
  (Cert.KHost.host1_keep_arg16 (W1 m ρ c)).trans (W1_arg16 m ρ c)

/-! ## After region 1 -/

/-- Region 1's output array: the second dense layer of the aggregation. -/
theorem W3_v48 (c : Dev nD) :
    W3 m ρ c (Proc.devRef .tc main_call0_v48)
      = Cert.Shared.dense1 (F := Ideal)
          (Cert.Shared.aggregate (F := Ideal) (Cert.Shared.dense0 (F := Ideal) (m ((c : Thread nD τ).loc main_arg1)) (m ((c : Thread nD τ).loc main_arg9))) (m ((c : Thread nD τ).loc main_arg4)) (m ((c : Thread nD τ).loc main_arg5)))
          (m ((c : Thread nD τ).loc main_arg10)) (m ((c : Thread nD τ).loc main_arg11)) (m ((c : Thread nD τ).loc main_arg12)) := by
  refine (W3_arr m ρ c 4).trans ((Cert.KRegion.region1 (V2 m ρ) c (m ((c : Thread nD τ).loc main_arg10)) (m ((c : Thread nD τ).loc main_arg12)) (W2_v46 m ρ c) (W2_v47 m ρ c)).trans ?_)
  show Cert.Shared.dense1 (F := Ideal) (W2 m ρ c (Proc.devRef .tc main_call0_v45)) _ (W2 m ρ c (Proc.devRef .tc main_arg11)) _ = _
  rw [W2_v45 m ρ c, W2_arg11 m ρ c]

theorem W3_arg6 (c : Dev nD) : W3 m ρ c (Proc.devRef .tc main_arg6) = m ((c : Thread nD τ).loc main_arg6) :=
  (W3_of_ne m ρ c main_arg6 (by decide)).trans (W2_arg6 m ρ c)
theorem W3_arg15 (c : Dev nD) : W3 m ρ c (Proc.devRef .tc main_arg15) = m ((c : Thread nD τ).loc main_arg15) :=
  (W3_of_ne m ρ c main_arg15 (by decide)).trans (W2_arg15 m ρ c)
theorem W3_arg16 (c : Dev nD) : W3 m ρ c (Proc.devRef .tc main_arg16) = m ((c : Thread nD τ).loc main_arg16) :=
  (W3_of_ne m ρ c main_arg16 (by decide)).trans (W2_arg16 m ρ c)

/-! ## After the second host stretch -/

theorem W4_v62 (c : Dev nD) :
    W4 m ρ c (Proc.devRef .tc main_call0_v62)
      = Cert.Shared.bipartite (F := Ideal)
          (Cert.Shared.dense1 (F := Ideal)
            (Cert.Shared.aggregate (F := Ideal) (Cert.Shared.dense0 (F := Ideal) (m ((c : Thread nD τ).loc main_arg1)) (m ((c : Thread nD τ).loc main_arg9))) (m ((c : Thread nD τ).loc main_arg4)) (m ((c : Thread nD τ).loc main_arg5)))
            (m ((c : Thread nD τ).loc main_arg10)) (m ((c : Thread nD τ).loc main_arg11)) (m ((c : Thread nD τ).loc main_arg12)))
          (m ((c : Thread nD τ).loc main_arg6)) := by
  refine (Cert.KHost.host2_bipartite (W3 m ρ c)).trans ?_
  rw [W3_v48 m ρ c, W3_arg6 m ρ c]

theorem W4_v63 (c : Dev nD) :
    W4 m ρ c (Proc.devRef .tc main_call0_v63) = shapeCast S1x10 (m ((c : Thread nD τ).loc main_arg16)) Facts₀.shapeCasts_S10_S1x10 := by
  refine (Cert.KHost.host2_bias (W3 m ρ c)).trans ?_
  rw [W3_arg16 m ρ c]

theorem W4_arg15 (c : Dev nD) : W4 m ρ c (Proc.devRef .tc main_arg15) = m ((c : Thread nD τ).loc main_arg15) :=
  (Cert.KHost.host2_keep_arg15 (W3 m ρ c)).trans (W3_arg15 m ρ c)

/-! ## After region 2: the result -/

/-- The result buffer at the last boundary holds the shared network function of the arguments. -/
theorem value (c : Dev nD) :
    W5 m ρ c (Proc.devRef .tc main_v0)
      = Cert.Shared.network (F := Ideal) (m ((c : Thread nD τ).loc main_arg1)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg15)) (m ((c : Thread nD τ).loc main_arg16)) := by
  refine (W5_arr m ρ c 3).trans ((Cert.KRegion.region2 (V4 m ρ) c (m ((c : Thread nD τ).loc main_arg16)) (W4_v63 m ρ c)).trans ?_)
  show Cert.Shared.dense2 (F := Ideal) (W4 m ρ c (Proc.devRef .tc main_call0_v62)) (W4 m ρ c (Proc.devRef .tc main_arg15)) _ = _
  rw [W4_v62 m ρ c, W4_arg15 m ρ c]
  rfl

end Cert.KValue

end
-- ==== Proof.RefOps.lean ====
import proofs.«426197_j26972394619794_2_alg».proof.Proof.Gen.ReferenceIdeal
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-- The 62 operations of the window `main_part0`, in order, each called function's lines in the place of its call. -/
abbrev opsA : List (HloOp τ sig (Elt F)) :=
  [ StableHlo.binary main_arg0 main_arg7 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v1 (iotaInDim S50000 32 0),
    StableHlo.unary main_arg2 main_v2 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v2 main_v3 rfl shapeCasts_S1x800000_S800000,
    StableHlo.binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg2 main_v5 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v8 (broadcastInDim S50000 ![] bcast_S_S50000 : (⟨S_, .f32⟩ : BufTy).Contents (Elt F) → (⟨S50000, .f32⟩ : BufTy).Contents (Elt F)),
    StableHlo.binary main_arg3 main_v8 main_v9 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_v7 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.unary main_v12 main_v15 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v14 : StableHlo.TRef sig ⟨S50000, .i1⟩) (.of main_v15 : StableHlo.TRef sig ⟨S50000, .f32⟩) main_call0.v1 main_call0.v2 select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v4 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v19 (broadcastInDim S850000 ![] bcast_S_S850000 : (⟨S_, .i32⟩ : BufTy).Contents (Elt F) → (⟨S850000, .i32⟩ : BufTy).Contents (Elt F)),
    StableHlo.binary main_v4 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v4 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v9 main_v24 (mulf : (⟨S850000, .f32⟩ : BufTy).Contents (Elt F) → (⟨S850000, .f32⟩ : BufTy).Contents (Elt F) → (⟨S850000, .f32⟩ : BufTy).Contents (Elt F)),
    StableHlo.nullary main_c_4 (constantI S_ 32 0#32),
    StableHlo.unary main_c_4 main_v25 (broadcastInDim S850000 ![] bcast_S_S850000 : (⟨S_, .i32⟩ : BufTy).Contents (Elt F) → (⟨S850000, .i32⟩ : BufTy).Contents (Elt F)),
    StableHlo.binary main_v7 main_v25 main_v26 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v27 (broadcastInDim S850000 ![] bcast_S_S850000 : (⟨S_, .i32⟩ : BufTy).Contents (Elt F) → (⟨S850000, .i32⟩ : BufTy).Contents (Elt F)),
    StableHlo.binary main_v7 main_v27 main_v28 (addi : (⟨S850000, .i32⟩ : BufTy).Contents (Elt F) → (⟨S850000, .i32⟩ : BufTy).Contents (Elt F) → (⟨S850000, .i32⟩ : BufTy).Contents (Elt F)),
    StableHlo.ternary main_v26 main_v28 main_v7 main_v29 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v29 main_v30 (broadcastInDim S850000x1 ![0] bcast_S850000_S850000x1_0 : (⟨S850000, .i32⟩ : BufTy).Contents (Elt F) → (⟨S850000x1, .i32⟩ : BufTy).Contents (Elt F)),
    StableHlo.binary main_v16 main_v30 main_v31 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v24 main_v31 main_v32 (mulf : (⟨S850000, .f32⟩ : BufTy).Contents (Elt F) → (⟨S850000, .f32⟩ : BufTy).Contents (Elt F) → (⟨S850000, .f32⟩ : BufTy).Contents (Elt F)),
    StableHlo.nullary main_c_6 (constantI S_ 32 0#32),
    StableHlo.unary main_c_6 main_v33 (broadcastInDim S850000 ![] bcast_S_S850000 : (⟨S_, .i32⟩ : BufTy).Contents (Elt F) → (⟨S850000, .i32⟩ : BufTy).Contents (Elt F)),
    StableHlo.binary main_v4 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v35 (broadcastInDim S850000 ![] bcast_S_S850000 : (⟨S_, .i32⟩ : BufTy).Contents (Elt F) → (⟨S850000, .i32⟩ : BufTy).Contents (Elt F)),
    StableHlo.binary main_v4 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v4 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_v0 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v32 main_v40 (broadcastInDim S850000x1 ![0] bcast_S850000_S850000x1_0 : (⟨S850000, .f32⟩ : BufTy).Contents (Elt F) → (⟨S850000x1, .f32⟩ : BufTy).Contents (Elt F)),
    StableHlo.unary main_v40 main_v41 (broadcastInDim S850000x128 ![0, 1] bcast_S850000x1_S850000x128_0_1 : (⟨S850000x1, .f32⟩ : BufTy).Contents (Elt F) → (⟨S850000x128, .f32⟩ : BufTy).Contents (Elt F)),
    StableHlo.binary main_v39 main_v41 main_v42 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v43 (broadcastInDim S50000x128 ![] bcast_S_S50000x128 : (⟨S_, .f32⟩ : BufTy).Contents (Elt F) → (⟨S50000x128, .f32⟩ : BufTy).Contents (Elt F)),
    StableHlo.unary main_v7 main_v44 (broadcastInDim S850000x1 ![0] bcast_S850000_S850000x1_0 : (⟨S850000, .i32⟩ : BufTy).Contents (Elt F) → (⟨S850000x1, .i32⟩ : BufTy).Contents (Elt F)),
    StableHlo.ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg8 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)) ]

theorem opsA_sub : (opsA : List (HloOp τ sig (Elt F))).Forall fun op => op.bufs ⊆ tcRefs τ sig :=
  ⟨binary_bufs_sub .., nullary_bufs_sub .., unary_bufs_sub .., reshape_bufs_sub .., binary_bufs_sub .., unary_bufs_sub ..,
    reshape_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

/-- The 76 operations of the window `main_part1`, in order, each called function's lines in the place of its call. -/
abbrev opsB : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v48 : StableHlo.TRef sig ⟨S50000x128, .f32⟩) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v48 : StableHlo.TRef sig ⟨S50000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v48 : StableHlo.TRef sig ⟨S50000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v48 : StableHlo.TRef sig ⟨S50000x128, .f32⟩) main_call1.v7 main_call1.call1.v0 select,
    StableHlo.binary main_arg1 main_arg9 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_v51 (iotaInDim S50000 32 0),
    StableHlo.unary main_arg4 main_v52 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v52 main_v53 rfl shapeCasts_S1x800000_S800000,
    StableHlo.binary main_v53 main_v51 main_v54 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg4 main_v55 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v55 main_v56 rfl shapeCasts_S1x800000_S800000,
    StableHlo.binary main_v56 main_v51 main_v57 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_9 (constant S_ .f32 0x3F800000#32),
    StableHlo.unary main_cst_9 main_v58 (broadcastInDim S50000 ![] bcast_S_S50000 : (⟨S_, .f32⟩ : BufTy).Contents (Elt F) → (⟨S50000, .f32⟩ : BufTy).Contents (Elt F)),
    StableHlo.binary main_arg5 main_v58 main_v59 ((fun a b => concatenate S850000 0 [⟨S800000, a⟩, ⟨S50000, b⟩] concatenates_S800000_S50000_S850000_d0) : (⟨S800000, .f32⟩ : BufTy).Contents (Elt F) → (⟨S50000, .f32⟩ : BufTy).Contents (Elt F) → (⟨S850000, .f32⟩ : BufTy).Contents (Elt F)),
    StableHlo.nullary main_cst_10 (constant S_ .f32 0x00000000#32),
    StableHlo.unary main_cst_10 main_v60 (broadcastInDim S50000 ![] bcast_S_S50000 : (⟨S_, .f32⟩ : BufTy).Contents (Elt F) → (⟨S50000, .f32⟩ : BufTy).Contents (Elt F)),
    StableHlo.unary main_v57 main_v61 (broadcastInDim S850000x1 ![0] bcast_S850000_S850000x1_0 : (⟨S850000, .i32⟩ : BufTy).Contents (Elt F) → (⟨S850000x1, .i32⟩ : BufTy).Contents (Elt F)),
    StableHlo.ternary main_v60 main_v61 main_v59 main_v62 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_11 (constant S_ .f32 0x00000000#32),
    StableHlo.unary main_cst_11 main_v63 (broadcastInDim S50000 ![] bcast_S_S50000 : (⟨S_, .f32⟩ : BufTy).Contents (Elt F) → (⟨S50000, .f32⟩ : BufTy).Contents (Elt F)),
    StableHlo.binary main_v62 main_v63 main_v64 (cmpf .ogt : (⟨S50000, .f32⟩ : BufTy).Contents (Elt F) → (⟨S50000, .f32⟩ : BufTy).Contents (Elt F) → (⟨S50000, .i1⟩ : BufTy).Contents (Elt F)),
    StableHlo.unary main_v62 main_v65 (Host.rsqrt : (⟨S50000, .f32⟩ : BufTy).Contents (Elt F) → (⟨S50000, .f32⟩ : BufTy).Contents (Elt F)),
    StableHlo.nullary main_cst_12 (constant S_ .f32 0x00000000#32),
    StableHlo.TRef.unary (.of main_cst_12 : StableHlo.TRef sig ⟨S_, .f32⟩) main_call2.v0 id,
    StableHlo.TRef.unary main_call2.v0 main_call2.v1 (broadcastInDim S50000 ![] bcast_S_S50000),
    StableHlo.TRef.ternary (.of main_v64 : StableHlo.TRef sig ⟨S50000, .i1⟩) (.of main_v65 : StableHlo.TRef sig ⟨S50000, .f32⟩) main_call2.v1 main_call2.v2 select,
    StableHlo.nullary main_c_13 (constantI S_ 32 0#32),
    StableHlo.unary main_c_13 main_v67 (broadcastInDim S850000 ![] bcast_S_S850000 : (⟨S_, .i32⟩ : BufTy).Contents (Elt F) → (⟨S850000, .i32⟩ : BufTy).Contents (Elt F)),
    StableHlo.binary main_v54 main_v67 main_v68 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v69 (broadcastInDim S850000 ![] bcast_S_S850000 : (⟨S_, .i32⟩ : BufTy).Contents (Elt F) → (⟨S850000, .i32⟩ : BufTy).Contents (Elt F)),
    StableHlo.binary main_v54 main_v69 main_v70 (addi : (⟨S850000, .i32⟩ : BufTy).Contents (Elt F) → (⟨S850000, .i32⟩ : BufTy).Contents (Elt F) → (⟨S850000, .i32⟩ : BufTy).Contents (Elt F)),
    StableHlo.ternary main_v68 main_v70 main_v54 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v71 main_v72 (broadcastInDim S850000x1 ![0] bcast_S850000_S850000x1_0 : (⟨S850000, .i32⟩ : BufTy).Contents (Elt F) → (⟨S850000x1, .i32⟩ : BufTy).Contents (Elt F)),
    StableHlo.binary main_v66 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v73 main_v59 main_v74 (mulf : (⟨S850000, .f32⟩ : BufTy).Contents (Elt F) → (⟨S850000, .f32⟩ : BufTy).Contents (Elt F) → (⟨S850000, .f32⟩ : BufTy).Contents (Elt F)),
    StableHlo.nullary main_c_15 (constantI S_ 32 0#32),
    StableHlo.unary main_c_15 main_v75 (broadcastInDim S850000 ![] bcast_S_S850000 : (⟨S_, .i32⟩ : BufTy).Contents (Elt F) → (⟨S850000, .i32⟩ : BufTy).Contents (Elt F)),
    StableHlo.binary main_v57 main_v75 main_v76 (cmpi .slt : (⟨S850000, .i32⟩ : BufTy).Contents (Elt F) → (⟨S850000, .i32⟩ : BufTy).Contents (Elt F) → (⟨S850000, .i1⟩ : BufTy).Contents (Elt F)),
    StableHlo.nullary main_c_16 (constantI S_ 32 50000#32),
    StableHlo.unary main_c_16 main_v77 (broadcastInDim S850000 ![] bcast_S_S850000 : (⟨S_, .i32⟩ : BufTy).Contents (Elt F) → (⟨S850000, .i32⟩ : BufTy).Contents (Elt F)),
    StableHlo.binary main_v57 main_v77 main_v78 (addi : (⟨S850000, .i32⟩ : BufTy).Contents (Elt F) → (⟨S850000, .i32⟩ : BufTy).Contents (Elt F) → (⟨S850000, .i32⟩ : BufTy).Contents (Elt F)),
    StableHlo.ternary main_v76 main_v78 main_v57 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v79 main_v80 (broadcastInDim S850000x1 ![0] bcast_S850000_S850000x1_0 : (⟨S850000, .i32⟩ : BufTy).Contents (Elt F) → (⟨S850000x1, .i32⟩ : BufTy).Contents (Elt F)),
    StableHlo.binary main_v66 main_v80 main_v81 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v74 main_v81 main_v82 (mulf : (⟨S850000, .f32⟩ : BufTy).Contents (Elt F) → (⟨S850000, .f32⟩ : BufTy).Contents (Elt F) → (⟨S850000, .f32⟩ : BufTy).Contents (Elt F)),
    StableHlo.nullary main_c_17 (constantI S_ 32 0#32),
    StableHlo.unary main_c_17 main_v83 (broadcastInDim S850000 ![] bcast_S_S850000 : (⟨S_, .i32⟩ : BufTy).Contents (Elt F) → (⟨S850000, .i32⟩ : BufTy).Contents (Elt F)),
    StableHlo.binary main_v54 main_v83 main_v84 (cmpi .slt : (⟨S850000, .i32⟩ : BufTy).Contents (Elt F) → (⟨S850000, .i32⟩ : BufTy).Contents (Elt F) → (⟨S850000, .i1⟩ : BufTy).Contents (Elt F)),
    StableHlo.nullary main_c_18 (constantI S_ 32 50000#32),
    StableHlo.unary main_c_18 main_v85 (broadcastInDim S850000 ![] bcast_S_S850000 : (⟨S_, .i32⟩ : BufTy).Contents (Elt F) → (⟨S850000, .i32⟩ : BufTy).Contents (Elt F)),
    StableHlo.binary main_v54 main_v85 main_v86 (addi : (⟨S850000, .i32⟩ : BufTy).Contents (Elt F) → (⟨S850000, .i32⟩ : BufTy).Contents (Elt F) → (⟨S850000, .i32⟩ : BufTy).Contents (Elt F)),
    StableHlo.ternary main_v84 main_v86 main_v54 main_v87 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v87 main_v88 (broadcastInDim S850000x1 ![0] bcast_S850000_S850000x1_0 : (⟨S850000, .i32⟩ : BufTy).Contents (Elt F) → (⟨S850000x1, .i32⟩ : BufTy).Contents (Elt F)),
    StableHlo.binary main_v50 main_v88 main_v89 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v82 main_v90 (broadcastInDim S850000x1 ![0] bcast_S850000_S850000x1_0 : (⟨S850000, .f32⟩ : BufTy).Contents (Elt F) → (⟨S850000x1, .f32⟩ : BufTy).Contents (Elt F)),
    StableHlo.unary main_v90 main_v91 (broadcastInDim S850000x128 ![0, 1] bcast_S850000x1_S850000x128_0_1 : (⟨S850000x1, .f32⟩ : BufTy).Contents (Elt F) → (⟨S850000x128, .f32⟩ : BufTy).Contents (Elt F)),
    StableHlo.binary main_v89 main_v91 main_v92 (mulf : (⟨S850000x128, .f32⟩ : BufTy).Contents (Elt F) → (⟨S850000x128, .f32⟩ : BufTy).Contents (Elt F) → (⟨S850000x128, .f32⟩ : BufTy).Contents (Elt F)),
    StableHlo.nullary main_cst_19 (constant S_ .f32 0x00000000#32),
    StableHlo.unary main_cst_19 main_v93 (broadcastInDim S50000x128 ![] bcast_S_S50000x128 : (⟨S_, .f32⟩ : BufTy).Contents (Elt F) → (⟨S50000x128, .f32⟩ : BufTy).Contents (Elt F)),
    StableHlo.unary main_v57 main_v94 (broadcastInDim S850000x1 ![0] bcast_S850000_S850000x1_0 : (⟨S850000, .i32⟩ : BufTy).Contents (Elt F) → (⟨S850000x1, .i32⟩ : BufTy).Contents (Elt F)),
    StableHlo.ternary main_v93 main_v94 main_v92 main_v95 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg10 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S50000x128 ![0, 1] bcast_S1x128_S50000x128_0_1 : (⟨S1x128, .f32⟩ : BufTy).Contents (Elt F) → (⟨S50000x128, .f32⟩ : BufTy).Contents (Elt F)) ]

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., nullary_bufs_sub .., unary_bufs_sub ..,
    reshape_bufs_sub .., binary_bufs_sub .., unary_bufs_sub .., reshape_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub ..⟩

/-- The 56 operations of the window `main_part2`, in order, each called function's lines in the place of its call. -/
abbrev opsC : List (HloOp τ sig (Elt F)) :=
  [ StableHlo.binary main_v95 main_v97 main_v98 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v98 : StableHlo.TRef sig ⟨S50000x128, .f32⟩) main_call3.v0 main_call3.v1 (cmpf .ogt),
    StableHlo.TRef.nullary main_call3.cst_0 (constant S_ .f32 0x00000000#32),
    StableHlo.TRef.unary main_call3.cst_0 main_call3.v2 (broadcastInDim S50000x128 ![] bcast_S_S50000x128),
    StableHlo.TRef.binary (.of main_v98 : StableHlo.TRef sig ⟨S50000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x128 ![] bcast_S_S50000x128),
    StableHlo.TRef.ternary main_call3.v3 main_call3.call0.v1 (.of main_v98 : StableHlo.TRef sig ⟨S50000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x128 ![] bcast_S_S50000x128),
    StableHlo.TRef.binary main_call3.v6 main_call3.v5 main_call3.v7 mulf,
    StableHlo.TRef.ternary main_call3.v1 (.of main_v98 : StableHlo.TRef sig ⟨S50000x128, .f32⟩) main_call3.v7 main_call3.call1.v0 select,
    StableHlo.binary main_v99 main_arg11 main_v100 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg12 main_v101 (broadcastInDim S1x64 ![1] bcast_S64_S1x64_1 : (⟨S64, .f32⟩ : BufTy).Contents (Elt F) → (⟨S1x64, .f32⟩ : BufTy).Contents (Elt F)),
    StableHlo.unary main_v101 main_v102 (broadcastInDim S50000x64 ![0, 1] bcast_S1x64_S50000x64_0_1 : (⟨S1x64, .f32⟩ : BufTy).Contents (Elt F) → (⟨S50000x64, .f32⟩ : BufTy).Contents (Elt F)),
    StableHlo.binary main_v100 main_v102 main_v103 (addf : (⟨S50000x64, .f32⟩ : BufTy).Contents (Elt F) → (⟨S50000x64, .f32⟩ : BufTy).Contents (Elt F) → (⟨S50000x64, .f32⟩ : BufTy).Contents (Elt F)),
    StableHlo.unary main_arg6 main_v104 ((extractStridedSlice S1x50000 ![0, 0] · slices_S2x50000_S1x50000_0_0) : (⟨S2x50000, .i32⟩ : BufTy).Contents (Elt F) → (⟨S1x50000, .i32⟩ : BufTy).Contents (Elt F)),
    StableHlo.reshape main_v104 main_v105 rfl shapeCasts_S1x50000_S50000,
    StableHlo.unary main_arg6 main_v106 ((extractStridedSlice S1x50000 ![1, 0] · slices_S2x50000_S1x50000_1_0) : (⟨S2x50000, .i32⟩ : BufTy).Contents (Elt F) → (⟨S1x50000, .i32⟩ : BufTy).Contents (Elt F)),
    StableHlo.reshape main_v106 main_v107 rfl shapeCasts_S1x50000_S50000,
    StableHlo.nullary main_c_20 (constantI S_ 32 0#32),
    StableHlo.unary main_c_20 main_v108 (broadcastInDim S50000 ![] bcast_S_S50000 : (⟨S_, .i32⟩ : BufTy).Contents (Elt F) → (⟨S50000, .i32⟩ : BufTy).Contents (Elt F)),
    StableHlo.binary main_v105 main_v108 main_v109 (cmpi .slt : (⟨S50000, .i32⟩ : BufTy).Contents (Elt F) → (⟨S50000, .i32⟩ : BufTy).Contents (Elt F) → (⟨S50000, .i1⟩ : BufTy).Contents (Elt F)),
    StableHlo.nullary main_c_21 (constantI S_ 32 50000#32),
    StableHlo.unary main_c_21 main_v110 (broadcastInDim S50000 ![] bcast_S_S50000 : (⟨S_, .i32⟩ : BufTy).Contents (Elt F) → (⟨S50000, .i32⟩ : BufTy).Contents (Elt F)),
    StableHlo.binary main_v105 main_v110 main_v111 (addi : (⟨S50000, .i32⟩ : BufTy).Contents (Elt F) → (⟨S50000, .i32⟩ : BufTy).Contents (Elt F) → (⟨S50000, .i32⟩ : BufTy).Contents (Elt F)),
    StableHlo.ternary main_v109 main_v111 main_v105 main_v112 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v112 main_v113 (broadcastInDim S50000x1 ![0] bcast_S50000_S50000x1_0 : (⟨S50000, .i32⟩ : BufTy).Contents (Elt F) → (⟨S50000x1, .i32⟩ : BufTy).Contents (Elt F)),
    StableHlo.binary main_v103 main_v113 main_v114 ((fun x i => Host.gather gather_S50000x64_S50000x1_S50000x64_1_0_n_n_0_1_164 x i) : (⟨S50000x64, .f32⟩ : BufTy).Contents (Elt F) → (⟨S50000x1, .i32⟩ : BufTy).Contents (Elt F) → (⟨S50000x64, .f32⟩ : BufTy).Contents (Elt F)),
    StableHlo.nullary main_cst_22 (constant S_ .f32 0x00000000#32),
    StableHlo.unary main_cst_22 main_v115 (broadcastInDim S50000x64 ![] bcast_S_S50000x64 : (⟨S_, .f32⟩ : BufTy).Contents (Elt F) → (⟨S50000x64, .f32⟩ : BufTy).Contents (Elt F)),
    StableHlo.unary main_v107 main_v116 (broadcastInDim S50000x1 ![0] bcast_S50000_S50000x1_0 : (⟨S50000, .i32⟩ : BufTy).Contents (Elt F) → (⟨S50000x1, .i32⟩ : BufTy).Contents (Elt F)),
    StableHlo.ternary main_v115 main_v116 main_v114 main_v117 ((fun x i u => Host.scatterAdd scatter_S50000x64_S50000x1_S50000x64_1_0_0_1 x i u) : (⟨S50000x64, .f32⟩ : BufTy).Contents (Elt F) → (⟨S50000x1, .i32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (.of main_v117 : StableHlo.TRef sig ⟨S50000x64, .f32⟩) main_call4.v0 main_call4.v1 (cmpf .ogt),
    StableHlo.TRef.nullary main_call4.cst_0 (constant S_ .f32 0x00000000#32),
    StableHlo.TRef.unary main_call4.cst_0 main_call4.v2 (broadcastInDim S50000x64 ![] bcast_S_S50000x64),
    StableHlo.TRef.binary (.of main_v117 : StableHlo.TRef sig ⟨S50000x64, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S50000x64 ![] bcast_S_S50000x64),
    StableHlo.TRef.ternary main_call4.v3 main_call4.call0.v1 (.of main_v117 : StableHlo.TRef sig ⟨S50000x64, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S50000x64 ![] bcast_S_S50000x64),
    StableHlo.TRef.binary main_call4.v6 main_call4.v5 main_call4.v7 mulf,
    StableHlo.TRef.ternary main_call4.v1 (.of main_v117 : StableHlo.TRef sig ⟨S50000x64, .f32⟩) main_call4.v7 main_call4.call1.v0 select,
    StableHlo.binary main_v118 main_arg15 main_v119 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    StableHlo.unary main_arg16 main_v120 (broadcastInDim S1x10 ![1] bcast_S10_S1x10_1 : (⟨S10, .f32⟩ : BufTy).Contents (Elt F) → (⟨S1x10, .f32⟩ : BufTy).Contents (Elt F)),
    StableHlo.unary main_v120 main_v121 (broadcastInDim S50000x10 ![0, 1] bcast_S1x10_S50000x10_0_1 : (⟨S1x10, .f32⟩ : BufTy).Contents (Elt F) → (⟨S50000x10, .f32⟩ : BufTy).Contents (Elt F)),
    StableHlo.binary main_v119 main_v121 main_v122 (addf : (⟨S50000x10, .f32⟩ : BufTy).Contents (Elt F) → (⟨S50000x10, .f32⟩ : BufTy).Contents (Elt F) → (⟨S50000x10, .f32⟩ : BufTy).Contents (Elt F)) ]

theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., unary_bufs_sub ..,
    unary_bufs_sub .., binary_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., binary_bufs_sub .., unary_bufs_sub ..,
    unary_bufs_sub .., binary_bufs_sub ..⟩

end Cert.RefOps

end
-- ==== Proof.RefRun.lean ====
/-
  The reference's run, read back.

  The reference is a straight line of host operations: first a first-order GCN branch whose result nothing reads, then the
  higher-order branch (a matrix product, the GCN aggregation, bias, ELU, a second matrix product and bias, the bipartite
  scatter, ELU, the last matrix product and bias).  Every weakly fair execution terminates with the result buffer at
  `Cert.Shared.network` of the argument arrays and the argument arrays unchanged.

  The program is printed in three windows; each window is the straight line of its operations (the called functions'
  lines standing where they are called), so the whole program is the straight line of the three lists in a row, and a
  straight line's run ends with every buffer at the fold of the operations' results over the launch contents.  The fold is
  then read window by window from an arbitrary valuation: the last window computes the output from the aggregate and
  the broadcast bias the middle window left, the middle window computes those two from the arguments, the first window
  (the first-order branch) and the first ELU of the middle window write only buffers nobody reads afterwards, and no
  window writes an argument.
-/
import proofs.«426197_j26972394619794_2_alg».proof.Proof.RefOps
import proofs.«426197_j26972394619794_2_alg».proof.Proof.Shared
import Idealize.ShloMosaic.Lib.StableHlo.Run
import Idealize.ShloMosaic.Lib.Pipeline.Frame

noncomputable section

namespace Cert.RefRun

open Cert.ReferenceIdeal Cert.ReferenceIdeal.Gen Cert.RefOps Idealize.ShloMosaic Idealize.ShloMosaic.TcCoe Idealize.SL.Sem Idealize.ShloMosaic.StableHlo

variable {F : FTy → Type} [FloatOps F]

/-! ## The program is the straight line of its operations -/

/-- Each window is the straight line of its list: both sides are the same chain of `hlo` steps once a called function's
    body is unfolded at its call and sequencing is reassociated, which is a computation. -/
theorem main_part0_eq (c : Dev nD) : main_part0 (F := F) c = seq opsA := by chain_rfl
theorem main_part1_eq (c : Dev nD) : main_part1 (F := F) c = seq opsB := by chain_rfl
theorem main_part2_eq (c : Dev nD) : main_part2 (F := F) c = seq opsC := by chain_rfl

/-- The three windows in a row are the three lists in a row. -/
theorem main_eq (c : Dev nD) : main (F := F) c = seq (opsA ++ (opsB ++ opsC)) := by
  rw [seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (opsA ++ (opsB ++ opsC) : List (HloOp τ sig (Elt F))).Forall fun op => op.bufs ⊆ tcRefs τ sig :=
  List.forall_append.mpr ⟨opsA_sub, List.forall_append.mpr ⟨opsB_sub, opsC_sub⟩⟩

/-- No operation allocates: each determines what it writes. -/
theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem ops_fresh : ∀ op ∈ (opsA ++ (opsB ++ opsC) : List (HloOp τ sig (Elt F))), op.fresh = ∅ :=
  List.forall_iff_forall_mem.mp (List.forall_append.mpr ⟨opsA_fresh, List.forall_append.mpr ⟨opsB_fresh, opsC_fresh⟩⟩)

/-! ## No window writes an argument -/

/-- The seventeen argument buffers. -/
def args : List (Ref sig .tc) :=
  [main_arg0, main_arg1, main_arg2, main_arg3, main_arg4, main_arg5, main_arg6, main_arg7, main_arg8, main_arg9, main_arg10, main_arg11, main_arg12, main_arg13, main_arg14, main_arg15, main_arg16]

set_option maxHeartbeats 4000000 in
/-- Window A leaves every argument as it was: each of its operations writes one buffer, none of them an argument's. -/
theorem keepA (V : Valuation τ sig (Elt F)) :
    ∀ b ∈ args, after opsA V (Proc.devRef .tc b) = V (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl <;> after_results_simp

set_option maxHeartbeats 4000000 in
/-- Window B leaves every argument as it was: each of its operations writes one buffer, none of them an argument's. -/
theorem keepB (V : Valuation τ sig (Elt F)) :
    ∀ b ∈ args, after opsB V (Proc.devRef .tc b) = V (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl <;> after_results_simp

set_option maxHeartbeats 4000000 in
/-- Window C leaves every argument as it was: each of its operations writes one buffer, none of them an argument's. -/
theorem keepC (V : Valuation τ sig (Elt F)) :
    ∀ b ∈ args, after opsC V (Proc.devRef .tc b) = V (Proc.devRef .tc b) := by
  intro b hb
  simp only [args, List.mem_cons, List.not_mem_nil, or_false] at hb
  rcases hb with rfl | rfl | rfl | rfl | rfl | rfl | rfl | rfl | rfl | rfl | rfl | rfl | rfl | rfl | rfl | rfl | rfl <;> after_results_simp

/-- The whole line leaves every argument as it was. -/
theorem keep (V : Valuation τ sig (Elt F)) (b : Ref sig .tc) (hb : b ∈ args) :
    after (opsA ++ (opsB ++ opsC)) V (Proc.devRef .tc b) = V (Proc.devRef .tc b) := by
  rw [after_append, after_append, keepC _ b hb, keepB _ b hb, keepA _ b hb]

/-! ## What the windows compute -/

/-- The second dense layer on an aggregate `g` and a bias `b` already broadcast over the rows: the middle window
    broadcasts the bias, the last one adds it. -/
def dense1At (g b : FVec F S50000x128 .f32) (w : FVec F S128x64 .f32) (b' : FVec F S64 .f32) : FVec F S50000x64 .f32 :=
  addf (Host.dotGeneral dot_S50000x128_S128x64_S50000x64_1_0_0_1_n_n none (Cert.Shared.eluWide (addf g b)) w)
    (broadcastInDim S50000x64 ![0, 1] bcast_S1x64_S50000x64_0_1 (broadcastInDim S1x64 ![1] bcast_S64_S1x64_1 b'))

attribute [local irreducible] Host.scatterAdd Host.gather in
set_option maxHeartbeats 4000000 in
/-- The last window, from any contents: bias and ELU on the aggregate, the second matrix product and bias, the bipartite
    gather and scatter, ELU, the last matrix product and bias.  The fold unrolled, each operation's result at the buffer
    it writes is its function of its operands' contents and at any other buffer what was there; what is left is the
    same composition of the same functions on both sides.  The scatter and the gather stay folded: the equation never
    looks inside them. -/
theorem readC (V : Valuation τ sig (Elt F)) :
    after opsC V (main_v122 : DevRef τ sig)
      = Cert.Shared.dense2 (Cert.Shared.bipartite (dense1At (V (main_v95 : DevRef τ sig)) (V (main_v97 : DevRef τ sig))
            (V (main_arg11 : DevRef τ sig)) (V (main_arg12 : DevRef τ sig))) (V (main_arg6 : DevRef τ sig)))
          (V (main_arg15 : DevRef τ sig)) (V (main_arg16 : DevRef τ sig)) := by
  after_results_simp
  rfl

attribute [local irreducible] Host.scatterAdd Host.gather concatenate in
set_option maxRecDepth 8192 in
set_option maxHeartbeats 4000000 in
/-- The middle window's aggregate, from any contents: the first matrix product, the edge list with its self-loops, the
    degrees and their inverse square roots, the edges' coefficients, and the scatter of the weighted rows.  The window's
    first ELU (of the first-order branch) writes buffers of its own and is passed over.  The fold unrolled, both sides are
    the same composition by computation; scatter, gather and concatenation stay folded. -/
theorem readB95 (V : Valuation τ sig (Elt F)) :
    after opsB V (main_v95 : DevRef τ sig)
      = Cert.Shared.aggregate (Cert.Shared.dense0 (V (main_arg1 : DevRef τ sig)) (V (main_arg9 : DevRef τ sig)))
          (V (main_arg4 : DevRef τ sig)) (V (main_arg5 : DevRef τ sig)) := by
  simp only [after_cons, after_nil]
  rfl

set_option maxHeartbeats 4000000 in
/-- The middle window's broadcast of the first bias over the rows, from any contents. -/
theorem readB97 (V : Valuation τ sig (Elt F)) :
    after opsB V (main_v97 : DevRef τ sig)
      = broadcastInDim S50000x128 ![0, 1] bcast_S1x128_S50000x128_0_1 (broadcastInDim S1x128 ![1] bcast_S128_S1x128_1 (V (main_arg10 : DevRef τ sig))) := by
  after_results_simp

/-- The output after the whole line, from any contents: the three windows read in turn, the arguments carried back to
    the start through the windows that do not write them. -/
theorem read_out (V : Valuation τ sig (Elt F)) :
    after (opsA ++ (opsB ++ opsC)) V (main_v122 : DevRef τ sig)
      = Cert.Shared.network (F := F) (V (main_arg1 : DevRef τ sig)) (V (main_arg4 : DevRef τ sig)) (V (main_arg5 : DevRef τ sig)) (V (main_arg6 : DevRef τ sig)) (V (main_arg9 : DevRef τ sig))
          (V (main_arg10 : DevRef τ sig)) (V (main_arg11 : DevRef τ sig)) (V (main_arg12 : DevRef τ sig)) (V (main_arg15 : DevRef τ sig)) (V (main_arg16 : DevRef τ sig)) := by
  rw [after_append, after_append, readC, readB95, readB97,
    keepB _ main_arg11 (by decide), keepB _ main_arg12 (by decide), keepB _ main_arg6 (by decide),
    keepB _ main_arg15 (by decide), keepB _ main_arg16 (by decide),
    keepA _ main_arg1 (by decide), keepA _ main_arg9 (by decide), keepA _ main_arg4 (by decide), keepA _ main_arg5 (by decide),
    keepA _ main_arg10 (by decide), keepA _ main_arg11 (by decide), keepA _ main_arg12 (by decide), keepA _ main_arg6 (by decide),
    keepA _ main_arg15 (by decide), keepA _ main_arg16 (by decide)]
  rfl

/-! ## The run -/

/-- On every device, for any float values, from any memory with zero counters: every weakly fair execution of the
    reference terminates with its result at the shared network function of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v122) = Cert.Shared.network (F := F) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v122).trans (read_out _),
      (h c main_arg0).trans (keep _ main_arg0 (by decide)),
      (h c main_arg1).trans (keep _ main_arg1 (by decide)),
      (h c main_arg2).trans (keep _ main_arg2 (by decide)),
      (h c main_arg3).trans (keep _ main_arg3 (by decide)),
      (h c main_arg4).trans (keep _ main_arg4 (by decide)),
      (h c main_arg5).trans (keep _ main_arg5 (by decide)),
      (h c main_arg6).trans (keep _ main_arg6 (by decide)),
      (h c main_arg7).trans (keep _ main_arg7 (by decide)),
      (h c main_arg8).trans (keep _ main_arg8 (by decide)),
      (h c main_arg9).trans (keep _ main_arg9 (by decide)),
      (h c main_arg10).trans (keep _ main_arg10 (by decide)),
      (h c main_arg11).trans (keep _ main_arg11 (by decide)),
      (h c main_arg12).trans (keep _ main_arg12 (by decide)),
      (h c main_arg13).trans (keep _ main_arg13 (by decide)),
      (h c main_arg14).trans (keep _ main_arg14 (by decide)),
      (h c main_arg15).trans (keep _ main_arg15 (by decide)),
      (h c main_arg16).trans (keep _ main_arg16 (by decide))⟩)
    (run_seq scopedRefs_eq scopedSems_eq defs main (fun _ => opsA ++ (opsB ++ opsC)) main_eq (fun _ => ops_sub) m ρ
      (hfresh := fun _ => ops_fresh))

end Cert.RefRun

end
-- ==== Proof.lean ====
/-
  Both programs compute one function of their arguments: the last dense layer of the bipartite sum of the second dense
  layer of the GCN aggregation of the first dense layer (`Cert.Shared.network`).

  The kernel program runs three pipelined matrix-product regions with two stretches of host scatters and gathers between
  them.  Each region's output blocks are the row blocks of a dense layer of its input arrays: a matrix product accumulated
  into zero is the plain contraction sum, a change of float format is the identity on the extended reals, and the kernel's
  ELU (x where x > 0, else exp(min(x, 0)) - 1) is jax's (x where x > 0, else 1 * expm1(x where not x > 0)) at every extended
  real.  The host stretches are the same operations in both programs and are carried as the shared functions `aggregate`
  and `bipartite`, never opened.  The reference is a straight line of host operations whose run is read back to the same
  composition; its first-order branch is computed and never read.  No law used needs finiteness, so the precondition is
  not opened.  The kernel's idealization rewrote no operation, so `preserves` is `True`.
-/
import proofs.«426197_j26972394619794_2_alg».proof.Defs
import proofs.«426197_j26972394619794_2_alg».proof.Proof.Gen.Kernel
import proofs.«426197_j26972394619794_2_alg».proof.Proof.Gen.Kernel.Frame
import proofs.«426197_j26972394619794_2_alg».proof.Proof.Gen.KernelIdeal
import proofs.«426197_j26972394619794_2_alg».proof.Proof.Gen.KernelIdeal.Frame
import proofs.«426197_j26972394619794_2_alg».proof.Proof.Gen.ReferenceIdeal
import proofs.«426197_j26972394619794_2_alg».proof.Proof.Gen.Pre_finite_inputs
import proofs.«426197_j26972394619794_2_alg».proof.Proof.Shared
import proofs.«426197_j26972394619794_2_alg».proof.Proof.KRun
import proofs.«426197_j26972394619794_2_alg».proof.Proof.KValue
import proofs.«426197_j26972394619794_2_alg».proof.Proof.RefRun
import Idealize.ShloMosaic.Adequacy
import Idealize.ShloMosaic.Init

noncomputable section

namespace Cert.Proof

open Idealize.ShloMosaic Idealize.SL.Sem

/-- The kernel program as printed runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result forgotten. -/
theorem frame_reference : Cert.frame_ReferenceIdeal := fun m ρ _ =>
  (θ_run Cert.ReferenceIdeal.defs _ _).mono (fun _ h c => (h c).2) (Cert.RefRun.run (F := Ideal) m ρ)

/-- The ideal pass rewrote nothing. -/
theorem preserves : Cert.preserves_Kernel_KernelIdeal := trivial

/-- From memories that agree on the arguments both programs end with the network function of the arguments in their
    result buffers. -/
theorem algebraic : Cert.algebraic_KernelIdeal_ReferenceIdeal := by
  intro m ρ m' ρ' _ hagree
  refine ⟨fun c => Cert.Shared.network (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun r h c => ⟨(h c).1.trans (Cert.KValue.value m ρ c), (h c).2⟩)
      (Cert.KernelIdeal.GenRun.run (F := Ideal) m ρ)
  · refine (θ_run Cert.ReferenceIdeal.defs _ _).mono (fun r h c => ⟨(h c).1.trans ?_, (h c).2⟩)
      (Cert.RefRun.run (F := Ideal) m' ρ')
    obtain ⟨h0, h1, h2, h3, h4, h5, h6, h7, h8, h9, h10, h11, h12, h13, h14, h15, h16⟩ := hagree c
    rw [h1, h4, h5, h6, h9, h10, h11, h12, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
